-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1 : Shape := ⟨1, ![1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S1024 .f32) (main_arg12 : FVec F S1024 .f32) (main_arg13 : FVec F S1024 .f32) (main_arg14 : FVec F S1 .f32) (main_arg15 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S3072 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) (main_arg14 : FVec F S1 .f32) (main_arg15 : FVec F S1 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_v48 main_v49 main_v50

def fn_part1 {F : FTy → Type} [FloatOps F] (main_arg4 : FVec F S1024x1024 .f32) (main_arg5 : FVec F S1024 .f32) (main_arg6 : FVec F S3072x1024 .f32) (main_arg7 : FVec F S3072 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) (main_arg14 : FVec F S1 .f32) (main_arg15 : FVec F S1 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S3072x1024 .f32 := Host.absf main_arg6
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x1024 .f32) (main_arg1 : FVec F S32768x1024 .f32) (main_arg2 : FVec F S3072x1024 .f32) (main_arg3 : FVec F S3072 .f32) (main_arg4 : FVec F S1024x1024 .f32) (main_arg5 : FVec F S1024 .f32) (main_arg6 : FVec F S3072x1024 .f32) (main_arg7 : FVec F S3072 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) (main_arg14 : FVec F S1 .f32) (main_arg15 : FVec F S1 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x1024 : Shape := ⟨2, ![32768, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1 : Shape := ⟨1, ![1]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 56
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S3072x1024, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1x1024, .f32⟩
  | .hbm, ⟨24, _⟩ => ⟨S1024x1024, .f32⟩
  | .hbm, ⟨25, _⟩ => ⟨S1x1024, .f32⟩
  | .hbm, ⟨26, _⟩ => ⟨S1024, .f32⟩
  | .hbm, ⟨27, _⟩ => ⟨S1024, .f32⟩
  | .hbm, ⟨28, _⟩ => ⟨S1024x1024, .f32⟩
  | .hbm, ⟨29, _⟩ => ⟨S1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1x1024, .f32⟩
  | .hbm, ⟨34, _⟩ => ⟨S1024x1024, .f32⟩
  | .hbm, ⟨35, _⟩ => ⟨S1x1024, .f32⟩
  | .hbm, ⟨36, _⟩ => ⟨S1024, .f32⟩
  | .hbm, ⟨37, _⟩ => ⟨S1024, .f32⟩
  | .hbm, ⟨38, _⟩ => ⟨S1024x1024, .f32⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .f32⟩
  | .hbm, ⟨43, _⟩ => ⟨S1024x1024, .bf16⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S32768x1024, .f32⟩
  | .hbm, ⟨55, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1_S_ : S1.ShapeCasts S_
  slices_S3072x1024_S1024x1024_2048_0 : S3072x1024.Slices ![2048, 0] S1024x1024
  slices_S3072_S1024_2048 : S3072.Slices ![2048] S1024
  transposes_S1024x1024_S1024x1024_1_0 : S1024x1024.Transposes [1, 0] S1024x1024
  bcast_S1024_S1x1024_1 : S1024.BroadcastsInDim S1x1024 (![1] : Fin 1 → Fin S1x1024.rank)
  shapeCasts_S1x1024_S1024 : S1x1024.ShapeCasts S1024
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S1024x1024_S1024x1024_S1024x1024_1_0_0_1_n_n_wf : DotDims.WF S1024x1024 S1024x1024 S1024x1024 [1] [0] [0] [1] [] []
  dot_S1x1024_S1024x1024_S1x1024_1_0_0_1_n_n_wf : DotDims.WF S1x1024 S1024x1024 S1x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S32768x1024.size a
  hwx0_10 : ∀ i : grid0.Coords, EltTy.bits .f32 = 32 ∨ (Rect.block (s := S32768x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S32768x1024.size a
  hwx0_11 : ∀ i : grid0.Coords, EltTy.bits .f32 = 32 ∨ (Rect.block (s := S32768x1024) S512x1024.size (cc0_transform_11 i) (hinb0_11 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38_0) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v38_1) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1 : Shape := ⟨1, ![1]⟩
abbrev S1x1024 : Shape := ⟨2, ![1, 1024]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S1x1 : Shape := ⟨2, ![1, 1]⟩
abbrev S32768 : Shape := ⟨1, ![32768]⟩
abbrev S32768x1 : Shape := ⟨2, ![32768, 1]⟩

abbrev nBuf : Space → Nat
  | .hbm => 186
  | .vmem => 0
  | .smem => 0
  | _ => 0

abbrev hbmTy0_0 (i : Nat) : BufTy := match i % 128 with
  | 0 => ⟨S32768x1024, .f32⟩
  | 1 => ⟨S32768x1024, .f32⟩
  | 2 => ⟨S3072x1024, .f32⟩
  | 3 => ⟨S3072, .f32⟩
  | 4 => ⟨S1024x1024, .f32⟩
  | 5 => ⟨S1024, .f32⟩
  | 6 => ⟨S3072x1024, .f32⟩
  | 7 => ⟨S3072, .f32⟩
  | 8 => ⟨S1024x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1, .f32⟩
  | 15 => ⟨S1, .f32⟩
  | 16 => ⟨S1024x1024, .f32⟩
  | 17 => ⟨S1024x1024, .f32⟩
  | 18 => ⟨S1024x1024, .f32⟩
  | 19 => ⟨S1024, .f32⟩
  | 20 => ⟨S1024, .f32⟩
  | 21 => ⟨S1024, .f32⟩
  | 22 => ⟨S1024x1024, .f32⟩
  | 23 => ⟨S32768x1024, .f32⟩
  | 24 => ⟨S1x1024, .f32⟩
  | 25 => ⟨S32768x1024, .f32⟩
  | 26 => ⟨S32768x1024, .f32⟩
  | 27 => ⟨S32768x8x128, .f32⟩
  | 28 => ⟨S1024x1024, .f32⟩
  | 29 => ⟨S32768x1024, .f32⟩
  | 30 => ⟨S1x1024, .f32⟩
  | 31 => ⟨S32768x1024, .f32⟩
  | 32 => ⟨S32768x1024, .f32⟩
  | 33 => ⟨S32768x8x128, .f32⟩
  | 34 => ⟨S1024x1024, .f32⟩
  | 35 => ⟨S32768x1024, .f32⟩
  | 36 => ⟨S1x1024, .f32⟩
  | 37 => ⟨S32768x1024, .f32⟩
  | 38 => ⟨S32768x1024, .f32⟩
  | 39 => ⟨S32768x8x128, .f32⟩
  | 40 => ⟨S32768x8x128, .f32⟩
  | 41 => ⟨S_, .f32⟩
  | 42 => ⟨S32768x8, .f32⟩
  | 43 => ⟨S32768x8x1, .f32⟩
  | 44 => ⟨S_, .f32⟩
  | 45 => ⟨S_, .f32⟩
  | 46 => ⟨S32768x8x1, .f32⟩
  | 47 => ⟨S32768x8x1, .f32⟩
  | 48 => ⟨S_, .f32⟩
  | 49 => ⟨S32768x8, .f32⟩
  | 50 => ⟨S_, .f32⟩
  | 51 => ⟨S32768x8, .f32⟩
  | 52 => ⟨S32768x8, .f32⟩
  | 53 => ⟨S32768x8x1, .f32⟩
  | 54 => ⟨S32768x8x1, .f32⟩
  | 55 => ⟨S32768x8x1, .f32⟩
  | 56 => ⟨S_, .f32⟩
  | 57 => ⟨S32768x8, .f32⟩
  | 58 => ⟨S32768x8x1, .f32⟩
  | 59 => ⟨S32768x8x1, .f32⟩
  | 60 => ⟨S32768x8x128, .f32⟩
  | 61 => ⟨S32768x8x128, .f32⟩
  | 62 => ⟨S32768x1024, .f32⟩
  | 63 => ⟨S1024x1024, .f32⟩
  | 64 => ⟨S32768x1024, .f32⟩
  | 65 => ⟨S1x1024, .f32⟩
  | 66 => ⟨S32768x1024, .f32⟩
  | 67 => ⟨S32768x1024, .f32⟩
  | 68 => ⟨S1024x1024, .f32⟩
  | 69 => ⟨S1024x1024, .f32⟩
  | 70 => ⟨S1024x1024, .f32⟩
  | 71 => ⟨S1024, .f32⟩
  | 72 => ⟨S1024, .f32⟩
  | 73 => ⟨S1024, .f32⟩
  | 74 => ⟨S1024x1024, .f32⟩
  | 75 => ⟨S32768x1024, .f32⟩
  | 76 => ⟨S1x1024, .f32⟩
  | 77 => ⟨S32768x1024, .f32⟩
  | 78 => ⟨S32768x1024, .f32⟩
  | 79 => ⟨S32768x8x128, .f32⟩
  | 80 => ⟨S1024x1024, .f32⟩
  | 81 => ⟨S32768x1024, .f32⟩
  | 82 => ⟨S1x1024, .f32⟩
  | 83 => ⟨S32768x1024, .f32⟩
  | 84 => ⟨S32768x1024, .f32⟩
  | 85 => ⟨S32768x8x128, .f32⟩
  | 86 => ⟨S1024x1024, .f32⟩
  | 87 => ⟨S32768x1024, .f32⟩
  | 88 => ⟨S1x1024, .f32⟩
  | 89 => ⟨S32768x1024, .f32⟩
  | 90 => ⟨S32768x1024, .f32⟩
  | 91 => ⟨S32768x8x128, .f32⟩
  | 92 => ⟨S32768x8x128, .f32⟩
  | 93 => ⟨S_, .f32⟩
  | 94 => ⟨S32768x8, .f32⟩
  | 95 => ⟨S32768x8x1, .f32⟩
  | 96 => ⟨S_, .f32⟩
  | 97 => ⟨S_, .f32⟩
  | 98 => ⟨S32768x8x1, .f32⟩
  | 99 => ⟨S32768x8x1, .f32⟩
  | 100 => ⟨S_, .f32⟩
  | 101 => ⟨S32768x8, .f32⟩
  | 102 => ⟨S_, .f32⟩
  | 103 => ⟨S32768x8, .f32⟩
  | 104 => ⟨S32768x8, .f32⟩
  | 105 => ⟨S32768x8x1, .f32⟩
  | 106 => ⟨S32768x8x1, .f32⟩
  | 107 => ⟨S32768x8x1, .f32⟩
  | 108 => ⟨S_, .f32⟩
  | 109 => ⟨S32768x8, .f32⟩
  | 110 => ⟨S32768x8x1, .f32⟩
  | 111 => ⟨S32768x8x1, .f32⟩
  | 112 => ⟨S32768x8x128, .f32⟩
  | 113 => ⟨S32768x8x128, .f32⟩
  | 114 => ⟨S32768x1024, .f32⟩
  | 115 => ⟨S1024x1024, .f32⟩
  | 116 => ⟨S32768x1024, .f32⟩
  | 117 => ⟨S1x1024, .f32⟩
  | 118 => ⟨S32768x1024, .f32⟩
  | 119 => ⟨S32768x1024, .f32⟩
  | 120 => ⟨S1x1, .f32⟩
  | 121 => ⟨S32768x1024, .f32⟩
  | 122 => ⟨S32768x1024, .f32⟩
  | 123 => ⟨S32768x1024, .f32⟩
  | 124 => ⟨S_, .f32⟩
  | 125 => ⟨S32768, .f32⟩
  | 126 => ⟨S32768x1, .f32⟩
  | 127 => ⟨S_, .f32⟩
  | _ => ⟨S32768x1024, .f32⟩

abbrev hbmTy0_1 (i : Nat) : BufTy := match i % 128 with
  | 0 => ⟨S32768x1, .f32⟩
  | 1 => ⟨S32768x1, .f32⟩
  | 2 => ⟨S32768x1024, .f32⟩
  | 3 => ⟨S32768x1024, .f32⟩
  | 4 => ⟨S32768x1024, .f32⟩
  | 5 => ⟨S_, .f32⟩
  | 6 => ⟨S32768, .f32⟩
  | 7 => ⟨S32768x1, .f32⟩
  | 8 => ⟨S_, .f32⟩
  | 9 => ⟨S32768x1, .f32⟩
  | 10 => ⟨S32768x1, .f32⟩
  | 11 => ⟨S32768x1024, .f32⟩
  | 12 => ⟨S32768x1024, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S1x1, .f32⟩
  | 26 => ⟨S32768x1024, .f32⟩
  | 27 => ⟨S32768x1024, .f32⟩
  | 28 => ⟨S32768x1024, .f32⟩
  | 29 => ⟨S_, .f32⟩
  | 30 => ⟨S32768, .f32⟩
  | 31 => ⟨S32768x1, .f32⟩
  | 32 => ⟨S_, .f32⟩
  | 33 => ⟨S32768x1, .f32⟩
  | 34 => ⟨S32768x1, .f32⟩
  | 35 => ⟨S32768x1024, .f32⟩
  | 36 => ⟨S32768x1024, .f32⟩
  | 37 => ⟨S32768x1024, .f32⟩
  | 38 => ⟨S_, .f32⟩
  | 39 => ⟨S32768, .f32⟩
  | 40 => ⟨S32768x1, .f32⟩
  | 41 => ⟨S_, .f32⟩
  | 42 => ⟨S32768x1, .f32⟩
  | 43 => ⟨S32768x1, .f32⟩
  | 44 => ⟨S32768x1024, .f32⟩
  | 45 => ⟨S32768x1024, .f32⟩
  | 46 => ⟨S_, .f32⟩
  | 47 => ⟨S32768x1, .f32⟩
  | 48 => ⟨S32768x1, .f32⟩
  | 49 => ⟨S32768x1, .f32⟩
  | 50 => ⟨S32768x1024, .f32⟩
  | 51 => ⟨S32768x1024, .f32⟩
  | 52 => ⟨S1x1024, .f32⟩
  | 53 => ⟨S32768x1024, .f32⟩
  | 54 => ⟨S32768x1024, .f32⟩
  | 55 => ⟨S1x1024, .f32⟩
  | 56 => ⟨S32768x1024, .f32⟩
  | 57 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_v72 : Ref sig .tc := ⟨.hbm, 94, rfl⟩
abbrev main_v73 : Ref sig .tc := ⟨.hbm, 95, rfl⟩
abbrev main_cst_5 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_6 : Ref sig .tc := ⟨.hbm, 100, rfl⟩
abbrev main_v77 : Ref sig .tc := ⟨.hbm, 101, rfl⟩
abbrev main_cst_7 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_8 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_9 : Ref sig .tc := ⟨.hbm, 124, rfl⟩
abbrev main_v98 : Ref sig .tc := ⟨.hbm, 125, rfl⟩
abbrev main_v99 : Ref sig .tc := ⟨.hbm, 126, rfl⟩
abbrev main_cst_10 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_11 : Ref sig .tc := ⟨.hbm, 133, rfl⟩
abbrev main_v105 : Ref sig .tc := ⟨.hbm, 134, rfl⟩
abbrev main_v106 : Ref sig .tc := ⟨.hbm, 135, rfl⟩
abbrev main_cst_12 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_14 : Ref sig .tc := ⟨.hbm, 157, rfl⟩
abbrev main_v126 : Ref sig .tc := ⟨.hbm, 158, rfl⟩
abbrev main_v127 : Ref sig .tc := ⟨.hbm, 159, rfl⟩
abbrev main_cst_15 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_16 : Ref sig .tc := ⟨.hbm, 166, rfl⟩
abbrev main_v133 : Ref sig .tc := ⟨.hbm, 167, rfl⟩
abbrev main_v134 : Ref sig .tc := ⟨.hbm, 168, rfl⟩
abbrev main_cst_17 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_18 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩

abbrev nD : Nat := 1
abbrev τ : Topo := Topo.v7x

variable {F : FTy → Type} [FloatOps F]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x1024_S32768x8x128 : S32768x1024.ShapeCasts S32768x8x128
  reducesTo_S32768x8x128_S32768x8_d2 : S32768x8x128.ReducesTo [2] S32768x8
  h_S_ : 0 < S_.numel
  bcast_S32768x8_S32768x8x1_0_1 : S32768x8.BroadcastsInDim S32768x8x1 (![0, 1] : Fin 2 → Fin S32768x8x1.rank)
  bcast_S_S32768x8x1 : S_.BroadcastsInDim S32768x8x1 (![] : Fin 0 → Fin S32768x8x1.rank)
  reducesTo_S32768x8x1_S32768x8_d2 : S32768x8x1.ReducesTo [2] S32768x8
  bcast_S_S32768x8 : S_.BroadcastsInDim S32768x8 (![] : Fin 0 → Fin S32768x8.rank)
  bcast_S32768x8x1_S32768x8x128_0_1_2 : S32768x8x1.BroadcastsInDim S32768x8x128 (![0, 1, 2] : Fin 3 → Fin S32768x8x128.rank)
  shapeCasts_S32768x8x128_S32768x1024 : S32768x8x128.ShapeCasts S32768x1024
  bcast_S1_S1x1_1 : S1.BroadcastsInDim S1x1 (![1] : Fin 1 → Fin S1x1.rank)
  bcast_S1x1_S32768x1024_0_1 : S1x1.BroadcastsInDim S32768x1024 (![0, 1] : Fin 2 → Fin S32768x1024.rank)
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Spec.lean ====
/-
  The mathematics both programs compute, for ONE side of the layer (the user side; the item side is the same function
  of the other arguments).

  With one query and one key the attention weight is a softmax over a single score, hence 1, and the layer is

      x[b, e]  = q[b, e] + α · ( Σ_k v[b, k] · Wo[e, k] + bo[e] ),     v[b, k] = Σ_j kv[b, j] · Win[2048 + k, j] + bin[2048 + k]
      out[b, e] = (x[b, e] − μ[b]) · rsqrt(σ²[b] + ε) · g[e] + β[e],   μ[b] = (Σ_e x[b, e]) / 1024,  σ²[b] = (Σ_e (x[b, e] − μ[b])²) / 1024

  on the extended reals, where rows 2048..3071 of the stacked in-projection are the value projection. `G` is this
  function of the argument arrays, index by index.
-/
import Idealize.ShloMosaic.PureOps.Ideal
import Idealize.ShloMosaic.Lib.ValueIdx

noncomputable section

namespace Cert.Spec

open Idealize.ShloMosaic Idealize.ShloMosaic.ValueIdx

/-- A matrix of extended reals with literal extents. -/
abbrev Mat (n k : Nat) : Type := (⟨2, ![n, k]⟩ : Shape).Idx → EReal
/-- A vector of extended reals with a literal extent. -/
abbrev Row (n : Nat) : Type := (⟨1, ![n]⟩ : Shape).Idx → EReal

/-- Row `2048 + k` of the stacked in-projection: the value projection's row `k`. -/
abbrev hi (k : Fin 1024) : Fin 3072 := ⟨2048 + k.val, by have := k.isLt; omega⟩

/-- The row length 1024 as the programs spell it. -/
def c1024 : EReal := Ideal.ofBits .f32 0x44800000#32
/-- The variance offset ε as the programs spell it (the same word in both). -/
def ceps : EReal := Ideal.ofBits .f32 0x3727C5AC#32

/-- The value projection of the key/value embedding: `v[b, k]`. -/
def vproj (kv : Mat 32768 1024) (inw : Mat 3072 1024) (inb : Row 3072) (b : Fin 32768) (k : Fin 1024) : EReal :=
  (∑ j : Fin 1024, kv (ix2 b j) * inw (ix2 (hi k) j)) + inb (ix1 (hi k))

/-- The attention output (weight 1 on the single key) through the out-projection. -/
def attn (kv : Mat 32768 1024) (inw : Mat 3072 1024) (inb : Row 3072) (ow : Mat 1024 1024) (ob : Row 1024)
    (b : Fin 32768) (e : Fin 1024) : EReal :=
  (∑ k : Fin 1024, vproj kv inw inb b k * ow (ix2 e k)) + ob (ix1 e)

/-- The residual sum that enters the layer norm. -/
def pre (q kv : Mat 32768 1024) (inw : Mat 3072 1024) (inb : Row 3072) (ow : Mat 1024 1024) (ob : Row 1024) (al : Row 1)
    (b : Fin 32768) (e : Fin 1024) : EReal :=
  q (ix2 b e) + al (ix1 0) * attn kv inw inb ow ob b e

/-- A row's mean. -/
def mean (x : Fin 32768 → Fin 1024 → EReal) (b : Fin 32768) : EReal := Ideal.div (∑ e : Fin 1024, x b e) c1024
/-- A row's variance, as the mean of the squared deviations. -/
def var (x : Fin 32768 → Fin 1024 → EReal) (b : Fin 32768) : EReal :=
  Ideal.div (∑ e : Fin 1024, (x b e - mean x b) * (x b e - mean x b)) c1024
/-- The layer norm of a row with scale `g` and shift `β`. -/
def ln (x : Fin 32768 → Fin 1024 → EReal) (g β : Row 1024) (b : Fin 32768) (e : Fin 1024) : EReal :=
  (x b e - mean x b) * Ideal.rsqrt (var x b + ceps) * g (ix1 e) + β (ix1 e)

/-- One side's result array as a function of its nine argument arrays. -/
def G (q kv : Mat 32768 1024) (inw : Mat 3072 1024) (inb : Row 3072) (ow : Mat 1024 1024) (ob : Row 1024) (al : Row 1)
    (g β : Row 1024) : Mat 32768 1024 :=
  fun i => ln (pre q kv inw inb ow ob al) g β (i 0) (i 1)

theorem G_apply (q kv : Mat 32768 1024) (inw : Mat 3072 1024) (inb : Row 3072) (ow : Mat 1024 1024) (ob : Row 1024) (al : Row 1)
    (g β : Row 1024) (b : Fin 32768) (e : Fin 1024) :
    G q kv inw inb ow ob al g β (ix2 b e) = ln (pre q kv inw inb ow ob al) g β b e := rfl

/-- An extended real that is a real number. -/
def IsR (x : EReal) : Prop := ∃ r : ℝ, x = (r : EReal)

end Cert.Spec

end
-- ==== Proof.KArgs.lean ====
/-
  The kernel program's argument arrays, and the arrays its host operations prepare for the launch, named at their
  literal shapes as arrays of extended reals.
-/
import proofs.«400539_j33011118637072_3_alg».proof.Proof.Gen.KernelIdeal.Frame
import proofs.«400539_j33011118637072_3_alg».proof.Proof.Spec

noncomputable section

namespace Cert.KernelIdeal.KArgs

open Cert.KernelIdeal Cert.KernelIdeal.Gen Idealize.ShloMosaic Idealize.ShloMosaic.TcCoe Idealize.SL.Sem Cert.Spec

variable (m : (ℓ : Loc nD τ sig) → Buf (Elt Ideal) ℓ)

/-- user embedding -/
abbrev A0 (c : Dev nD) : Mat 32768 1024 := m ((c : Thread nD τ).loc main_arg0)
/-- item embedding -/
abbrev A1 (c : Dev nD) : Mat 32768 1024 := m ((c : Thread nD τ).loc main_arg1)
/-- user-to-item attention: stacked in-projection, its bias, out-projection, its bias -/
abbrev A2 (c : Dev nD) : Mat 3072 1024 := m ((c : Thread nD τ).loc main_arg2)
abbrev A3 (c : Dev nD) : Row 3072 := m ((c : Thread nD τ).loc main_arg3)
abbrev A4 (c : Dev nD) : Mat 1024 1024 := m ((c : Thread nD τ).loc main_arg4)
abbrev A5 (c : Dev nD) : Row 1024 := m ((c : Thread nD τ).loc main_arg5)
/-- item-to-user attention: the same four -/
abbrev A6 (c : Dev nD) : Mat 3072 1024 := m ((c : Thread nD τ).loc main_arg6)
abbrev A7 (c : Dev nD) : Row 3072 := m ((c : Thread nD τ).loc main_arg7)
abbrev A8 (c : Dev nD) : Mat 1024 1024 := m ((c : Thread nD τ).loc main_arg8)
abbrev A9 (c : Dev nD) : Row 1024 := m ((c : Thread nD τ).loc main_arg9)
/-- the two norms' scales and shifts -/
abbrev A10 (c : Dev nD) : Row 1024 := m ((c : Thread nD τ).loc main_arg10)
abbrev A11 (c : Dev nD) : Row 1024 := m ((c : Thread nD τ).loc main_arg11)
abbrev A12 (c : Dev nD) : Row 1024 := m ((c : Thread nD τ).loc main_arg12)
abbrev A13 (c : Dev nD) : Row 1024 := m ((c : Thread nD τ).loc main_arg13)
/-- the two residual scales -/
abbrev A14 (c : Dev nD) : Row 1 := m ((c : Thread nD τ).loc main_arg14)
abbrev A15 (c : Dev nD) : Row 1 := m ((c : Thread nD τ).loc main_arg15)

/-- What the launch finds in the windows' host-made arrays: the folded matrices, the folded bias rows, the norms' rows. -/
abbrev W24 (c : Dev nD) : Mat 1024 1024 := V m c main_v24
abbrev B32 (c : Dev nD) : Mat 1 1024 := V m c main_v32
abbrev G34 (c : Dev nD) : Mat 1 1024 := V m c main_v34
abbrev H35 (c : Dev nD) : Mat 1 1024 := V m c main_v35
abbrev W27 (c : Dev nD) : Mat 1024 1024 := V m c main_v27
abbrev B33 (c : Dev nD) : Mat 1 1024 := V m c main_v33
abbrev G36 (c : Dev nD) : Mat 1 1024 := V m c main_v36
abbrev H37 (c : Dev nD) : Mat 1 1024 := V m c main_v37

end Cert.KernelIdeal.KArgs

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KHost.lean ====
/-
  What the host leaves in the arrays the kernel's windows stage, read at an index.

  Before the launch the host folds, per side, the value projection `Win[2048.., :]` and the out-projection `Wo` into one
  matrix `W[j, e] = (Σ_k Win[2048 + k, j] · Wo[e, k]) · α`, the biases into `bias[e] = (Σ_k bin[2048 + k] · Wo[e, k] + bo[e]) · α`,
  and re-lays the norm's scale and shift as rows. (The narrowing of `W` to a shorter float format is the identity on the
  extended reals.)
-/
import proofs.«400539_j33011118637072_3_alg».proof.Proof.Gen.KernelIdeal.Frame
import proofs.«400539_j33011118637072_3_alg».proof.Proof.KArgs
import proofs.«400539_j33011118637072_3_alg».proof.Proof.LibPlainDot
import Idealize.ShloMosaic.Lib.StableHlo.Run
import Idealize.ShloMosaic.Lib.Pipeline.Value
import Idealize.ShloMosaic.Lib.ValueIdx

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx Cert.Spec Cert.KernelIdeal.KArgs

variable (m : (ℓ : Loc nD τ sig) → Buf (Elt Ideal) ℓ)

/-! ## The layout operations of the host's preparation, read at an index -/

section Reads
variable {α : Type}

/-- A vector of 1024 re-laid as a row of a 1 × 1024 matrix. -/
theorem reshape_row (x : S1024.Idx → α) (h : S1024.ShapeCasts S1x1024) (e : Fin 1024) :
    shapeCast S1x1024 x h (ix2 0 e) = x (ix1 e) := by
  refine shapeCast_apply x h (ix2 0 e) (ix1 e) ?_
  show ((⟨1, ![1024]⟩ : Shape).rowMajor (ix1 e)).val = ((⟨2, ![1, 1024]⟩ : Shape).rowMajor (ix2 0 e)).val
  rw [Shape.rowMajor_val_one, Shape.rowMajor_val_two]
  show e.val = 0 * 1024 + e.val
  omega

/-- The row of a 1 × 1024 matrix re-laid as a vector of 1024. -/
theorem reshape_unrow (x : S1x1024.Idx → α) (h : S1x1024.ShapeCasts S1024) (e : Fin 1024) :
    shapeCast S1024 x h (ix1 e) = x (ix2 0 e) := by
  refine shapeCast_apply x h (ix1 e) (ix2 0 e) ?_
  show ((⟨2, ![1, 1024]⟩ : Shape).rowMajor (ix2 0 e)).val = ((⟨1, ![1024]⟩ : Shape).rowMajor (ix1 e)).val
  rw [Shape.rowMajor_val_one, Shape.rowMajor_val_two]
  show 0 * 1024 + e.val = e.val
  omega

/-- A vector of one entry re-laid as a scalar. -/
theorem reshape_scalar (x : S1.Idx → α) (h : S1.ShapeCasts S_) (i : S_.Idx) :
    shapeCast S_ x h i = x (ix1 0) := by
  refine shapeCast_apply x h i (ix1 0) ?_
  show ((⟨1, ![1]⟩ : Shape).rowMajor (ix1 0)).val = ((⟨0, ![]⟩ : Shape).rowMajor i).val
  rw [Shape.rowMajor_val_one]
  have := ((⟨0, ![]⟩ : Shape).rowMajor i).isLt
  show 0 = _
  simp [Shape.numel] at this
  omega

/-- A scalar broadcast to a vector of 1024. -/
theorem bcast_scalar_row (x : S_.Idx → α) (h : S_.BroadcastsInDim S1024 (![] : Fin 0 → Fin S1024.rank)) (j : S1024.Idx) :
    broadcastInDim S1024 ![] h x j = x ix0 :=
  broadcastInDim_apply _ h x j ix0 fun a => a.elim0

/-- A scalar broadcast to a 1024 × 1024 matrix. -/
theorem bcast_scalar_mat (x : S_.Idx → α) (h : S_.BroadcastsInDim S1024x1024 (![] : Fin 0 → Fin S1024x1024.rank))
    (j : S1024x1024.Idx) : broadcastInDim S1024x1024 ![] h x j = x ix0 :=
  broadcastInDim_apply _ h x j ix0 fun a => a.elim0

/-- A vector of 1024 broadcast along a new leading axis of extent 1. -/
theorem bcast_row (x : S1024.Idx → α) (h : S1024.BroadcastsInDim S1x1024 (![1] : Fin 1 → Fin S1x1024.rank)) (k : Fin 1024) :
    broadcastInDim S1x1024 ![1] h x (ix2 0 k) = x (ix1 k) :=
  broadcastInDim_apply _ h x (ix2 0 k) (ix1 k) fun a => match a with | ⟨0, _⟩ => rfl

/-- Entries 2048.. of a vector of 3072. -/
theorem slice_row (x : S3072.Idx → α) (h : S3072.Slices ![2048] S1024) (k : Fin 1024) :
    extractStridedSlice S1024 ![2048] x h (ix1 k) = x (ix1 (hi k)) :=
  extractStridedSlice_apply _ x h (ix1 k) (ix1 (hi k)) fun a => match a with | ⟨0, _⟩ => rfl

/-- Rows 2048.. of a 3072 × 1024 matrix. -/
theorem slice_mat (x : S3072x1024.Idx → α) (h : S3072x1024.Slices ![2048, 0] S1024x1024) (k j : Fin 1024) :
    extractStridedSlice S1024x1024 ![2048, 0] x h (ix2 k j) = x (ix2 (hi k) j) :=
  extractStridedSlice_apply _ x h (ix2 k j) (ix2 (hi k) j) fun a => match a with
    | ⟨0, _⟩ => rfl
    | ⟨1, _⟩ => by show j.val = 0 + j.val; omega

/-- The transpose of a 1024 × 1024 matrix. -/
theorem transpose_mat (x : S1024x1024.Idx → α) (h : S1024x1024.Transposes [1, 0] S1024x1024) (a b : Fin 1024) :
    transpose S1024x1024 [1, 0] x h (ix2 a b) = x (ix2 b a) :=
  transpose_apply _ x h (ix2 a b) (ix2 b a) fun d => match d with | ⟨0, _⟩ => rfl | ⟨1, _⟩ => rfl

end Reads

/-! ## The arrays the host prepares -/

set_option maxHeartbeats 4000000 in
/-- The user side's folded matrix. -/
theorem V24_apply (c : Dev nD) (j e : Fin 1024) :
    W24 m c (ix2 j e)
      = (∑ k : Fin 1024, A2 m c (ix2 (hi k) j) * A4 m c (ix2 e k))
          * A14 m c (ix1 0) := by
  show StableHlo.after hostOps0 (fun b => m (c, b)) (Proc.devRef .tc main_v24) (ix2 j e) = _
  after_results_simp
  rw [truncf_apply, mulf_apply]
  refine congrArg₂ (· * ·) ?_ ?_
  · refine (LibPlainDot.dotGeneral_apply _ rfl _ _ _ j e).trans ?_
    refine Finset.sum_congr rfl fun k _ => ?_
    rw [transpose_mat, slice_mat, transpose_mat]
  · refine (bcast_scalar_mat _ _ _).trans ?_
    exact reshape_scalar _ _ _

set_option maxHeartbeats 4000000 in
/-- The user side's folded bias row. -/
theorem V32_apply (c : Dev nD) (e : Fin 1024) :
    B32 m c (ix2 0 e)
      = ((∑ k : Fin 1024, A3 m c (ix1 (hi k)) * A4 m c (ix2 e k))
          + A5 m c (ix1 e)) * A14 m c (ix1 0) := by
  show StableHlo.after hostOps0 (fun b => m (c, b)) (Proc.devRef .tc main_v32) (ix2 0 e) = _
  after_results_simp
  refine (reshape_row _ _ e).trans ?_
  rw [mulf_apply, addf_apply]
  refine congrArg₂ (· * ·) (congrArg₂ (· + ·) ?_ rfl) ?_
  · refine (reshape_unrow _ _ e).trans ?_
    refine (LibPlainDot.dotGeneral_apply _ rfl _ _ _ 0 e).trans ?_
    refine Finset.sum_congr rfl fun k _ => ?_
    rw [bcast_row, slice_row, transpose_mat]
  · refine (bcast_scalar_row _ _ _).trans ?_
    exact reshape_scalar _ _ _

set_option maxHeartbeats 4000000 in
/-- The user norm's scale as a row. -/
theorem V34_apply (c : Dev nD) (e : Fin 1024) : G34 m c (ix2 0 e) = A10 m c (ix1 e) := by
  show StableHlo.after hostOps0 (fun b => m (c, b)) (Proc.devRef .tc main_v34) (ix2 0 e) = _
  after_results_simp
  exact reshape_row _ _ e

set_option maxHeartbeats 4000000 in
/-- The user norm's shift as a row. -/
theorem V35_apply (c : Dev nD) (e : Fin 1024) : H35 m c (ix2 0 e) = A11 m c (ix1 e) := by
  show StableHlo.after hostOps0 (fun b => m (c, b)) (Proc.devRef .tc main_v35) (ix2 0 e) = _
  after_results_simp
  exact reshape_row _ _ e

set_option maxHeartbeats 4000000 in
/-- The item side's folded matrix. -/
theorem V27_apply (c : Dev nD) (j e : Fin 1024) :
    W27 m c (ix2 j e)
      = (∑ k : Fin 1024, A6 m c (ix2 (hi k) j) * A8 m c (ix2 e k))
          * A15 m c (ix1 0) := by
  show StableHlo.after hostOps0 (fun b => m (c, b)) (Proc.devRef .tc main_v27) (ix2 j e) = _
  after_results_simp
  rw [truncf_apply, mulf_apply]
  refine congrArg₂ (· * ·) ?_ ?_
  · refine (LibPlainDot.dotGeneral_apply _ rfl _ _ _ j e).trans ?_
    refine Finset.sum_congr rfl fun k _ => ?_
    rw [transpose_mat, slice_mat, transpose_mat]
  · refine (bcast_scalar_mat _ _ _).trans ?_
    exact reshape_scalar _ _ _

set_option maxHeartbeats 4000000 in
/-- The item side's folded bias row. -/
theorem V33_apply (c : Dev nD) (e : Fin 1024) :
    B33 m c (ix2 0 e)
      = ((∑ k : Fin 1024, A7 m c (ix1 (hi k)) * A8 m c (ix2 e k))
          + A9 m c (ix1 e)) * A15 m c (ix1 0) := by
  show StableHlo.after hostOps0 (fun b => m (c, b)) (Proc.devRef .tc main_v33) (ix2 0 e) = _
  after_results_simp
  refine (reshape_row _ _ e).trans ?_
  rw [mulf_apply, addf_apply]
  refine congrArg₂ (· * ·) (congrArg₂ (· + ·) ?_ rfl) ?_
  · refine (reshape_unrow _ _ e).trans ?_
    refine (LibPlainDot.dotGeneral_apply _ rfl _ _ _ 0 e).trans ?_
    refine Finset.sum_congr rfl fun k _ => ?_
    rw [bcast_row, slice_row, transpose_mat]
  · refine (bcast_scalar_row _ _ _).trans ?_
    exact reshape_scalar _ _ _

set_option maxHeartbeats 4000000 in
/-- The item norm's scale as a row. -/
theorem V36_apply (c : Dev nD) (e : Fin 1024) : G36 m c (ix2 0 e) = A12 m c (ix1 e) := by
  show StableHlo.after hostOps0 (fun b => m (c, b)) (Proc.devRef .tc main_v36) (ix2 0 e) = _
  after_results_simp
  exact reshape_row _ _ e

set_option maxHeartbeats 4000000 in
/-- The item norm's shift as a row. -/
theorem V37_apply (c : Dev nD) (e : Fin 1024) : H37 m c (ix2 0 e) = A13 m c (ix1 e) := by
  show StableHlo.after hostOps0 (fun b => m (c, b)) (Proc.devRef .tc main_v37) (ix2 0 e) = _
  after_results_simp
  exact reshape_row _ _ e

end Cert.KernelIdeal.KHost

end
-- ==== Proof.Algebra.lean ====
/-
  The algebra that joins the two programs, over the extended reals, and what finiteness of the inputs buys.

  * Real entries are closed under sums and products, so every intermediate of the layer is a real number when the
    inputs are (`IsR`): the softmax of ONE finite score is `exp 0 / exp 0 = 1`.
  * Folding the value projection and the out-projection into one matrix, and the residual scale into it, gives the same
    residual input: distributivity and an exchange of the two sums, valid on reals.
  * A real row's variance is `E[x²] − E[x]²`, which is never negative, so clamping it at 0 changes nothing.
-/
import proofs.«400539_j33011118637072_3_alg».proof.Proof.Spec

noncomputable section

namespace Cert.Spec

open Idealize.ShloMosaic Idealize.ShloMosaic.ValueIdx

/-- Every entry of an array is a real number. -/
def AllR {s : Shape} (x : s.Idx → EReal) : Prop := ∀ i, IsR (x i)

/-! ## Real entries -/

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.sub {x y : EReal} (hx : IsR x) (hy : IsR y) : IsR (x - y) := by
  obtain ⟨a, rfl⟩ := hx
  obtain ⟨b, rfl⟩ := hy
  exact ⟨a - b, (EReal.coe_sub a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact IsR.add (h a (Finset.mem_insert_self a s)) (ih (fun i hi => h i (Finset.mem_insert_of_mem hi)))

/-- The coercion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The quotient by a nonzero real. -/
theorem IsR.div_coe {x : EReal} (hx : IsR x) {r : ℝ} (hr : r ≠ 0) : IsR (Ideal.div x (r : EReal)) := by
  rw [Ideal.div_coe hr]
  exact IsR.mul hx (IsR.coe _)

/-! ## The constants -/

theorem c1024_eq : c1024 = ((1024 : ℝ) : EReal) := by
  simp [c1024, Ideal.ofBits, Ideal.ieee, -EReal.coe_mul]; norm_num
/-- The f32 word of `−∞`. -/
theorem ofBits_neg_inf : Ideal.ofBits .f32 0xFF800000#32 = ⊥ := by
  simp [Ideal.ofBits, Ideal.ieee]
/-- The f32 word of `128`. -/
theorem ofBits_128 : Ideal.ofBits .f32 0x43000000#32 = ((128 : ℝ) : EReal) := by
  simp [Ideal.ofBits, Ideal.ieee, -EReal.coe_mul]; norm_num
/-- `√128`, the scores' divisor, is a nonzero real. -/
theorem sqrt_128 : ∃ r : ℝ, r ≠ 0 ∧ Ideal.sqrt (Ideal.ofBits .f32 0x43000000#32) = (r : EReal) := by
  refine ⟨Real.sqrt 128, ?_, ?_⟩
  · exact (Real.sqrt_pos.mpr (by norm_num)).ne'
  · rw [ofBits_128, Ideal.sqrt_coe, if_neg (by norm_num)]
theorem IsR.div_c1024 {x : EReal} (hx : IsR x) : IsR (Ideal.div x c1024) := by
  rw [c1024_eq]
  exact IsR.div_coe hx (by norm_num)

/-! ## The softmax of one finite score -/

/-- The maximum over the one score, from `−∞`, taken twice as the reference does, is the score. -/
theorem max_single (z : EReal) : max (⊥ : EReal) (max z ⊥) = z := by
  rw [max_eq_left (bot_le : (⊥ : EReal) ≤ z), max_eq_right (bot_le : (⊥ : EReal) ≤ z)]
/-- `exp (z − z) / (0 + exp (z − z)) = 1` for a finite score `z`. -/
theorem softmax_single (z : EReal) (hz : IsR z) : Ideal.div (Ideal.exp (z - z)) (0 + Ideal.exp (z - z)) = 1 := by
  obtain ⟨r, rfl⟩ := hz
  have h : Ideal.exp ((r : EReal) - (r : EReal)) = ((1 : ℝ) : EReal) := by
    rw [← EReal.coe_sub, sub_self, Ideal.exp_coe, Real.exp_zero]
  rw [h, zero_add, Ideal.div_coe one_ne_zero, ← EReal.coe_mul, one_div, inv_one, mul_one, EReal.coe_one]

/-! ## Folding the two projections and the residual scale -/

/-- The fold on real numbers: distributivity and the exchange of the two sums. -/
theorem fold_real {n : Nat} (q al obe : ℝ) (kv β O : Fin n → ℝ) (W : Fin n → Fin n → ℝ) :
    q + ((∑ j : Fin n, kv j * ((∑ k : Fin n, W k j * O k) * al)) + ((∑ k : Fin n, β k * O k) + obe) * al)
      = q + al * ((∑ k : Fin n, ((∑ j : Fin n, kv j * W k j) + β k) * O k) + obe) := by
  have hL : ∑ j : Fin n, kv j * ((∑ k : Fin n, W k j * O k) * al)
      = al * ∑ k : Fin n, (∑ j : Fin n, kv j * W k j) * O k := by
    simp only [Finset.sum_mul, Finset.mul_sum]
    rw [Finset.sum_comm]
    exact Finset.sum_congr rfl (fun k _ => Finset.sum_congr rfl (fun j _ => by ring))
  have hR : ∑ k : Fin n, ((∑ j : Fin n, kv j * W k j) + β k) * O k
      = (∑ k : Fin n, (∑ j : Fin n, kv j * W k j) * O k) + ∑ k : Fin n, β k * O k := by
    rw [← Finset.sum_add_distrib]
    exact Finset.sum_congr rfl (fun k _ => by ring)
  rw [hL, hR]
  ring

/-- `W k j` is the value projection's entry, `O k` the out-projection's row for the output column at hand. -/
theorem fold_eq (q al obe : EReal) (kv β O : Fin 1024 → EReal) (W : Fin 1024 → Fin 1024 → EReal)
    (hq : IsR q) (hal : IsR al) (hob : IsR obe) (hkv : ∀ j, IsR (kv j)) (hβ : ∀ k, IsR (β k)) (hO : ∀ k, IsR (O k))
    (hW : ∀ k j, IsR (W k j)) :
    q + ((∑ j : Fin 1024, kv j * ((∑ k : Fin 1024, W k j * O k) * al)) + ((∑ k : Fin 1024, β k * O k) + obe) * al)
      = q + al * ((∑ k : Fin 1024, ((∑ j : Fin 1024, kv j * W k j) + β k) * O k) + obe) := by
  obtain ⟨q, rfl⟩ := hq
  obtain ⟨al, rfl⟩ := hal
  obtain ⟨obe, rfl⟩ := hob
  choose kv' hkv using hkv
  choose β' hβ using hβ
  choose O' hO using hO
  choose W' hW using hW
  simp only [hkv, hβ, hO, hW, ← EReal.coe_mul, ← coe_sum, ← EReal.coe_add]
  rw [EReal.coe_eq_coe_iff]
  exact fold_real q al obe kv' β' O' W'

/-- The residual input is a real number when the arrays it reads are. -/
theorem pre_isR (q kv : Mat 32768 1024) (inw : Mat 3072 1024) (inb : Row 3072) (ow : Mat 1024 1024) (ob : Row 1024) (al : Row 1)
    (hq : AllR q) (hkv : AllR kv) (hinw : AllR inw) (hinb : AllR inb) (how : AllR ow) (hob : AllR ob) (hal : AllR al)
    (b : Fin 32768) (e : Fin 1024) : IsR (pre q kv inw inb ow ob al b e) := by
  unfold pre attn vproj
  exact IsR.add (hq _) (IsR.mul (hal _) (IsR.add
    (IsR.sum _ _ (fun k _ => IsR.mul
      (IsR.add (IsR.sum _ _ (fun j _ => IsR.mul (hkv _) (hinw _))) (hinb _)) (how _)))
    (hob _)))

/-! ## The variance two ways -/

/-- On real numbers, with `c = 1/n`: `E[x²] − E[x]·E[x]` is the mean squared deviation. -/
theorem var_real {n : Nat} (x : Fin n → ℝ) (c : ℝ) (hc : (n : ℝ) * c = 1) :
    (∑ e : Fin n, x e * x e) * c - (∑ e : Fin n, x e) * c * ((∑ e : Fin n, x e) * c)
      = (∑ e : Fin n, (x e - (∑ e' : Fin n, x e') * c) * (x e - (∑ e' : Fin n, x e') * c)) * c := by
  set S : ℝ := ∑ e : Fin n, x e
  have h1 : ∀ e, (x e - S * c) * (x e - S * c) = x e * x e - 2 * (S * c) * x e + S * c * (S * c) := fun e => by ring
  have h2 : ∑ e : Fin n, (x e - S * c) * (x e - S * c)
      = (∑ e : Fin n, x e * x e) - 2 * (S * c) * S + (n : ℝ) * (S * c * (S * c)) := by
    simp only [h1, Finset.sum_add_distrib, Finset.sum_sub_distrib, ← Finset.mul_sum, Finset.sum_const,
      Finset.card_univ, Fintype.card_fin, nsmul_eq_mul]
    ring
  rw [h2]
  have h3 : (n : ℝ) * (S * c * (S * c)) * c = S * c * (S * c) * ((n : ℝ) * c) := by ring
  rw [add_mul, h3, hc]
  ring

/-- For a real row, `max (E[x²] − E[x]·E[x]) 0` is the mean squared deviation. -/
theorem var_eq (x : Fin 1024 → EReal) (hx : ∀ e, IsR (x e)) :
    max (Ideal.div (∑ e : Fin 1024, x e * x e) c1024
          - Ideal.div (∑ e : Fin 1024, x e) c1024 * Ideal.div (∑ e : Fin 1024, x e) c1024) 0
      = Ideal.div (∑ e : Fin 1024, (x e - Ideal.div (∑ e' : Fin 1024, x e') c1024)
          * (x e - Ideal.div (∑ e' : Fin 1024, x e') c1024)) c1024 := by
  choose x' hx' using hx
  have hne : (1024 : ℝ) ≠ 0 := by norm_num
  simp only [hx', c1024_eq, Ideal.div_coe hne, ← EReal.coe_mul, ← coe_sum, ← EReal.coe_sub]
  rw [var_real x' (1 / 1024 : ℝ) (by norm_num)]
  refine max_eq_left (EReal.coe_nonneg.mpr ?_)
  exact mul_nonneg (Finset.sum_nonneg (fun e _ => mul_self_nonneg _)) (by norm_num)

end Cert.Spec

end
-- ==== Proof.KBody.lean ====
/-
  The kernel body's two stored blocks, read at an index of the block.

  For block row `r` the body forms `x[e] = own[r, e] + (Σ_j other[r, j] · W[j, e] + bias[0, e])` (the matrix unit's product
  into a zero accumulator is the plain sum; the narrowing of the operands is the identity on extended reals), takes the
  row's mean and the mean of its squares by lane sums divided by 1024, and stores
  `(x[e] − μ) · rsqrt(max(E[x²] − μ·μ, 0) + ε) · g[0, e] + β[0, e]`. For a row of real numbers the clamped
  `E[x²] − μ·μ` is the mean squared deviation, so the block is the layer norm `lnRow` of `x`.
-/
import proofs.«400539_j33011118637072_3_alg».proof.Proof.Gen.KernelIdeal.Value
import proofs.«400539_j33011118637072_3_alg».proof.Proof.Algebra
import proofs.«400539_j33011118637072_3_alg».proof.Proof.LibPlainDot
import Idealize.ShloMosaic.PureOps.Ideal.Laws
import Idealize.ShloMosaic.Lib.Pipeline.Value
import Idealize.ShloMosaic.Lib.ValueIdx

noncomputable section

namespace Cert.KernelIdeal.KBody

open Cert.KernelIdeal Cert.KernelIdeal.Gen Cert.KernelIdeal.Value Idealize.ShloMosaic Idealize.ShloMosaic.ValueIdx Cert.Spec

/-- The layer norm of one row `x` with scale `g` and shift `β`. -/
def lnRow (x g β : Fin 1024 → EReal) (e : Fin 1024) : EReal :=
  (x e - Ideal.div (∑ e' : Fin 1024, x e') c1024)
      * Ideal.rsqrt (Ideal.div (∑ e' : Fin 1024, (x e' - Ideal.div (∑ e'' : Fin 1024, x e'') c1024)
          * (x e' - Ideal.div (∑ e'' : Fin 1024, x e'') c1024)) c1024 + ceps)
      * g e + β e

/-- The specification's layer norm is `lnRow` of the row. -/
theorem ln_eq_lnRow (x : Fin 32768 → Fin 1024 → EReal) (g β : Row 1024) (b : Fin 32768) (e : Fin 1024) :
    ln x g β b e = lnRow (x b) (fun e => g (ix1 e)) (fun e => β (ix1 e)) e := rfl

/-- A lane sum of a `512 × 1024` block at row `r`. -/
theorem rowsum_apply (v : FVec Ideal S512x1024 .f32) (r : Fin 512) :
    multiReduction (F := Ideal) .add [1] S512 v 0x00000000#32 reduces_S512x1024_S512 (.inl rfl) rfl (ix1 r) = ∑ e : Fin 1024, v (ix2 r e) := by
  refine (Ideal.multiReduction_add_single v 0x00000000#32 reduces_S512x1024_S512 (.inl rfl) rfl (ix1 r)).trans ?_
  show (∑ k : Fin 1024, v (reduces_S512x1024_S512.lift (ix1 r) k)) = _
  refine Finset.sum_congr rfl fun k _ => congrArg v (funext fun a => Fin.ext ?_)
  match a with
  | ⟨0, _⟩ => rfl
  | ⟨1, _⟩ => rfl

/-- A bias row broadcast over the block's rows. -/
theorem biasrow_apply (P3 : FVec Ideal S1x1024 .f32) (r : Fin 512) (e : Fin 1024) :
    broadcastTo S512x1024 (shapeCast S1x1024 P3 shapeCasts_S1x1024_S1x1024) broadcasts_S1x1024_S512x1024 (ix2 r e) = P3 (ix2 0 e) := by
  refine (broadcastTo_apply _ _ (ix2 r e) (ix2 0 e) (fun a => match a with
    | ⟨0, _⟩ => by show 0 = (if (1 : Nat) = 1 then 0 else r.val); rw [if_pos rfl]
    | ⟨1, _⟩ => by show e.val = (if (1024 : Nat) = 1 then 0 else e.val); rw [if_neg (by decide)])).trans ?_
  rw [shapeCast_self]

/-- The matrix unit's product of a block with the resident matrix. -/
theorem mm_apply (P1 : FVec Ideal S512x1024 .f32) (P2 : FVec Ideal S1024x1024 .bf16) (r : Fin 512) (e : Fin 1024) :
    matmul (F := Ideal) dot_S512x1024_S1024x1024_S512x1024_1_0_0_1_n_n none (truncf .bf16 P1 bitsLt_bf16_f32)
        (shapeCast S1024x1024 P2 shapeCasts_S1024x1024_S1024x1024) (constant (F := Ideal) S512x1024 .f32 0x00000000#32) (ix2 r e)
      = ∑ j : Fin 1024, P1 (ix2 r j) * P2 (ix2 j e) := by
  refine (Cert.LibPlainDot.matmul_zero_apply dot_S512x1024_S1024x1024_S512x1024_1_0_0_1_n_n rfl none _ _ r e).trans ?_
  rw [shapeCast_self]
  rfl

/-- The user side's residual input at `(r, e)` of the block. -/
theorem pay1_apply (P0 P1 : FVec Ideal S512x1024 .f32) (P2 : FVec Ideal S1024x1024 .bf16) (P3 : FVec Ideal S1x1024 .f32)
    (r : Fin 512) (e : Fin 1024) :
    k0_pay1 (F := Ideal) P0 P1 P2 P3 (ix2 r e) = P0 (ix2 r e) + ((∑ j : Fin 1024, P1 (ix2 r j) * P2 (ix2 j e)) + P3 (ix2 0 e)) := by
  unfold k0_pay1
  show P0 (ix2 r e) + (matmul (F := Ideal) dot_S512x1024_S1024x1024_S512x1024_1_0_0_1_n_n none (truncf .bf16 P1 bitsLt_bf16_f32)
        (shapeCast S1024x1024 P2 shapeCasts_S1024x1024_S1024x1024) (constant (F := Ideal) S512x1024 .f32 0x00000000#32) (ix2 r e)
      + broadcastTo S512x1024 (shapeCast S1x1024 P3 shapeCasts_S1x1024_S1x1024) broadcasts_S1x1024_S512x1024 (ix2 r e)) = _
  rw [mm_apply, biasrow_apply]

/-- The item side's residual input at `(r, e)` of the block: its own block is the second load. -/
theorem pay2_apply (P0 P1 : FVec Ideal S512x1024 .f32) (P2 : FVec Ideal S1024x1024 .bf16) (P3 : FVec Ideal S1x1024 .f32)
    (r : Fin 512) (e : Fin 1024) :
    k0_pay2 (F := Ideal) P0 P1 P2 P3 (ix2 r e) = P1 (ix2 r e) + ((∑ j : Fin 1024, P0 (ix2 r j) * P2 (ix2 j e)) + P3 (ix2 0 e)) := by
  unfold k0_pay2
  show P1 (ix2 r e) + (matmul (F := Ideal) dot_S512x1024_S1024x1024_S512x1024_1_0_0_1_n_n none (truncf .bf16 P0 bitsLt_bf16_f32)
        (shapeCast S1024x1024 P2 shapeCasts_S1024x1024_S1024x1024) (constant (F := Ideal) S512x1024 .f32 0x00000000#32) (ix2 r e)
      + broadcastTo S512x1024 (shapeCast S1x1024 P3 shapeCasts_S1x1024_S1x1024) broadcasts_S1x1024_S512x1024 (ix2 r e)) = _
  rw [mm_apply, biasrow_apply]

/-- The kernel's form of the norm, on a row already named `x`, its sum `s` and its sum of squares `q`. -/
theorem kernel_norm_eq (x : Fin 1024 → EReal) (hxR : ∀ e', IsR (x e')) (g β : EReal) (e : Fin 1024) :
    (x e - Ideal.div (∑ e' : Fin 1024, x e') c1024)
        * Ideal.rsqrt (max (Ideal.div (∑ e' : Fin 1024, x e' * x e') c1024
            - Ideal.div (∑ e' : Fin 1024, x e') c1024 * Ideal.div (∑ e' : Fin 1024, x e') c1024) (Ideal.ofBits .f32 0x00000000#32) + ceps)
        * g + β
      = (x e - Ideal.div (∑ e' : Fin 1024, x e') c1024)
        * Ideal.rsqrt (Ideal.div (∑ e' : Fin 1024, (x e' - Ideal.div (∑ e'' : Fin 1024, x e'') c1024)
            * (x e' - Ideal.div (∑ e'' : Fin 1024, x e'') c1024)) c1024 + ceps)
        * g + β := by
  rw [Ideal.ofBits_zero_f32, var_eq x hxR]

/-- The user side's stored block at `(r, e)`, for a row of reals `x`. -/
theorem E10_apply (P0 P1 : FVec Ideal S512x1024 .f32) (P2 : FVec Ideal S1024x1024 .bf16) (P3 P4 P5 : FVec Ideal S1x1024 .f32)
    (r : Fin 512) (e : Fin 1024) (x : Fin 1024 → EReal)
    (hx : ∀ e', P0 (ix2 r e') + ((∑ j : Fin 1024, P1 (ix2 r j) * P2 (ix2 j e')) + P3 (ix2 0 e')) = x e')
    (hxR : ∀ e', IsR (x e')) :
    E10 (F := Ideal) P0 P1 P2 P3 P4 P5 (ix2 r e) = lnRow x (fun e => P4 (ix2 0 e)) (fun e => P5 (ix2 0 e)) e := by
  have hp : ∀ e', k0_pay1 (F := Ideal) P0 P1 P2 P3 (ix2 r e') = x e' := fun e' => (pay1_apply P0 P1 P2 P3 r e').trans (hx e')
  have hs : multiReduction (F := Ideal) .add [1] S512 (k0_pay1 (F := Ideal) P0 P1 P2 P3) 0x00000000#32 reduces_S512x1024_S512 (.inl rfl) rfl (ix1 r)
      = ∑ e' : Fin 1024, x e' := (rowsum_apply _ r).trans (Finset.sum_congr rfl fun e' _ => hp e')
  have hq : multiReduction (F := Ideal) .add [1] S512 (mulf (k0_pay1 (F := Ideal) P0 P1 P2 P3) (k0_pay1 (F := Ideal) P0 P1 P2 P3)) 0x00000000#32 reduces_S512x1024_S512 (.inl rfl) rfl (ix1 r)
      = ∑ e' : Fin 1024, x e' * x e' :=
    (rowsum_apply _ r).trans (Finset.sum_congr rfl fun e' _ => by
      show k0_pay1 (F := Ideal) P0 P1 P2 P3 (ix2 r e') * k0_pay1 (F := Ideal) P0 P1 P2 P3 (ix2 r e') = _
      rw [hp e'])
  have i0 : ix10_0 (ix2 r e) = ix2 r e := funext fun a => Fin.ext (by match a with | ⟨0, _⟩ => rfl | ⟨1, _⟩ => rfl)
  have i1 : ix10_1 (ix2 r e) = ix1 r := funext fun a => Fin.ext (by match a with | ⟨0, _⟩ => rfl)
  have i2 : ix10_2 (ix2 r e) = ix1 r := funext fun a => Fin.ext (by match a with | ⟨0, _⟩ => rfl)
  have i3 : ix10_3 (ix2 r e) = ix1 r := funext fun a => Fin.ext (by match a with | ⟨0, _⟩ => rfl)
  have i4 : ix10_4 (ix2 r e) = ix1 r := funext fun a => Fin.ext (by match a with | ⟨0, _⟩ => rfl)
  have i6 : ix10_6 (ix2 r e) = ix2 0 e := funext fun a => Fin.ext (by match a with | ⟨0, _⟩ => rfl | ⟨1, _⟩ => rfl)
  have i7 : ix10_7 (ix2 r e) = ix2 0 e := funext fun a => Fin.ext (by match a with | ⟨0, _⟩ => rfl | ⟨1, _⟩ => rfl)
  show (k0_pay1 (F := Ideal) P0 P1 P2 P3 (ix10_0 (ix2 r e))
        - Ideal.div (multiReduction (F := Ideal) .add [1] S512 (k0_pay1 (F := Ideal) P0 P1 P2 P3) 0x00000000#32 reduces_S512x1024_S512 (.inl rfl) rfl (ix10_1 (ix2 r e))) c1024)
      * Ideal.rsqrt (max (Ideal.div (multiReduction (F := Ideal) .add [1] S512 (mulf (k0_pay1 (F := Ideal) P0 P1 P2 P3) (k0_pay1 (F := Ideal) P0 P1 P2 P3)) 0x00000000#32 reduces_S512x1024_S512 (.inl rfl) rfl (ix10_2 (ix2 r e))) c1024
          - Ideal.div (multiReduction (F := Ideal) .add [1] S512 (k0_pay1 (F := Ideal) P0 P1 P2 P3) 0x00000000#32 reduces_S512x1024_S512 (.inl rfl) rfl (ix10_3 (ix2 r e))) c1024
            * Ideal.div (multiReduction (F := Ideal) .add [1] S512 (k0_pay1 (F := Ideal) P0 P1 P2 P3) 0x00000000#32 reduces_S512x1024_S512 (.inl rfl) rfl (ix10_4 (ix2 r e))) c1024)
          (Ideal.ofBits .f32 0x00000000#32) + ceps)
      * P4 (ix10_6 (ix2 r e)) + P5 (ix10_7 (ix2 r e)) = _
  rw [i0, i1, i2, i3, i4, i6, i7, hp e, hs, hq]
  exact kernel_norm_eq x hxR _ _ e

/-- The item side's stored block at `(r, e)`, for a row of reals `x`. -/
theorem E11_apply (P0 P1 : FVec Ideal S512x1024 .f32) (P2 : FVec Ideal S1024x1024 .bf16) (P3 P4 P5 : FVec Ideal S1x1024 .f32)
    (r : Fin 512) (e : Fin 1024) (x : Fin 1024 → EReal)
    (hx : ∀ e', P1 (ix2 r e') + ((∑ j : Fin 1024, P0 (ix2 r j) * P2 (ix2 j e')) + P3 (ix2 0 e')) = x e')
    (hxR : ∀ e', IsR (x e')) :
    E11 (F := Ideal) P0 P1 P2 P3 P4 P5 (ix2 r e) = lnRow x (fun e => P4 (ix2 0 e)) (fun e => P5 (ix2 0 e)) e := by
  have hp : ∀ e', k0_pay2 (F := Ideal) P0 P1 P2 P3 (ix2 r e') = x e' := fun e' => (pay2_apply P0 P1 P2 P3 r e').trans (hx e')
  have hs : multiReduction (F := Ideal) .add [1] S512 (k0_pay2 (F := Ideal) P0 P1 P2 P3) 0x00000000#32 reduces_S512x1024_S512 (.inl rfl) rfl (ix1 r)
      = ∑ e' : Fin 1024, x e' := (rowsum_apply _ r).trans (Finset.sum_congr rfl fun e' _ => hp e')
  have hq : multiReduction (F := Ideal) .add [1] S512 (mulf (k0_pay2 (F := Ideal) P0 P1 P2 P3) (k0_pay2 (F := Ideal) P0 P1 P2 P3)) 0x00000000#32 reduces_S512x1024_S512 (.inl rfl) rfl (ix1 r)
      = ∑ e' : Fin 1024, x e' * x e' :=
    (rowsum_apply _ r).trans (Finset.sum_congr rfl fun e' _ => by
      show k0_pay2 (F := Ideal) P0 P1 P2 P3 (ix2 r e') * k0_pay2 (F := Ideal) P0 P1 P2 P3 (ix2 r e') = _
      rw [hp e'])
  have i0 : ix11_0 (ix2 r e) = ix2 r e := funext fun a => Fin.ext (by match a with | ⟨0, _⟩ => rfl | ⟨1, _⟩ => rfl)
  have i1 : ix11_1 (ix2 r e) = ix1 r := funext fun a => Fin.ext (by match a with | ⟨0, _⟩ => rfl)
  have i2 : ix11_2 (ix2 r e) = ix1 r := funext fun a => Fin.ext (by match a with | ⟨0, _⟩ => rfl)
  have i3 : ix11_3 (ix2 r e) = ix1 r := funext fun a => Fin.ext (by match a with | ⟨0, _⟩ => rfl)
  have i4 : ix11_4 (ix2 r e) = ix1 r := funext fun a => Fin.ext (by match a with | ⟨0, _⟩ => rfl)
  have i5 : ix11_5 (ix2 r e) = ix2 0 e := funext fun a => Fin.ext (by match a with | ⟨0, _⟩ => rfl | ⟨1, _⟩ => rfl)
  have i6 : ix11_6 (ix2 r e) = ix2 0 e := funext fun a => Fin.ext (by match a with | ⟨0, _⟩ => rfl | ⟨1, _⟩ => rfl)
  show (k0_pay2 (F := Ideal) P0 P1 P2 P3 (ix11_0 (ix2 r e))
        - Ideal.div (multiReduction (F := Ideal) .add [1] S512 (k0_pay2 (F := Ideal) P0 P1 P2 P3) 0x00000000#32 reduces_S512x1024_S512 (.inl rfl) rfl (ix11_1 (ix2 r e))) c1024)
      * Ideal.rsqrt (max (Ideal.div (multiReduction (F := Ideal) .add [1] S512 (mulf (k0_pay2 (F := Ideal) P0 P1 P2 P3) (k0_pay2 (F := Ideal) P0 P1 P2 P3)) 0x00000000#32 reduces_S512x1024_S512 (.inl rfl) rfl (ix11_2 (ix2 r e))) c1024
          - Ideal.div (multiReduction (F := Ideal) .add [1] S512 (k0_pay2 (F := Ideal) P0 P1 P2 P3) 0x00000000#32 reduces_S512x1024_S512 (.inl rfl) rfl (ix11_3 (ix2 r e))) c1024
            * Ideal.div (multiReduction (F := Ideal) .add [1] S512 (k0_pay2 (F := Ideal) P0 P1 P2 P3) 0x00000000#32 reduces_S512x1024_S512 (.inl rfl) rfl (ix11_4 (ix2 r e))) c1024)
          (Ideal.ofBits .f32 0x00000000#32) + ceps)
      * P4 (ix11_5 (ix2 r e)) + P5 (ix11_6 (ix2 r e)) = _
  rw [i0, i1, i2, i3, i4, i5, i6, hp e, hs, hq]
  exact kernel_norm_eq x hxR _ _ e

end Cert.KernelIdeal.KBody

end
-- ==== Proof.KBlock.lean ====
/-
  From the blocks the grid points write back to the two result arrays.

  Point `t` of the 64-point grid stages rows `512·t … 512·t + 511` of the two embeddings and the whole of each folded
  matrix, bias row and norm row; its two stored blocks are the layer's function `G` of the argument arrays on those
  rows, and the 64 blocks tile each result array.
-/
import proofs.«400539_j33011118637072_3_alg».proof.Proof.Gen.KernelIdeal.Value
import proofs.«400539_j33011118637072_3_alg».proof.Proof.KArgs
import proofs.«400539_j33011118637072_3_alg».proof.Proof.KHost
import proofs.«400539_j33011118637072_3_alg».proof.Proof.KBody
import proofs.«400539_j33011118637072_3_alg».proof.Proof.Algebra
import Idealize.ShloMosaic.Lib.Pipeline.Value
import Idealize.ShloMosaic.Lib.ValueIdx

noncomputable section

namespace Cert.KernelIdeal.KBlock

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Spec Cert.KernelIdeal.KArgs Cert.KernelIdeal.KHost Cert.KernelIdeal.KBody

variable (m : (ℓ : Loc nD τ sig) → Buf (Elt Ideal) ℓ)

theorem hz : (![0, 0] : Fin 2 → Nat) = fun _ => 0 := funext fun a => by fin_cases a <;> rfl

/-- The printed index maps over the grid: the embeddings' and the results' blocks move with the point, every other
    window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The array row under block row `r` of point `t`. -/
def row (t : Fin cfg0.N) (r : Fin 512) : Fin 32768 :=
  ⟨t.val * 512 + r.val, by have h : t.val < 64 := lt_of_lt_of_eq t.isLt N_0; have := r.isLt; omega⟩

/-- The staged blocks at their literal types. -/
abbrev I0 (c : Dev nD) (t : Fin cfg0.N) : FVec Ideal S512x1024 .f32 := iblk m c 0 t
abbrev I1 (c : Dev nD) (t : Fin cfg0.N) : FVec Ideal S512x1024 .f32 := iblk m c 1 t
abbrev I2 (c : Dev nD) (t : Fin cfg0.N) : FVec Ideal S1024x1024 .bf16 := iblk m c 2 t
abbrev I3 (c : Dev nD) (t : Fin cfg0.N) : FVec Ideal S1x1024 .f32 := iblk m c 3 t
abbrev I4 (c : Dev nD) (t : Fin cfg0.N) : FVec Ideal S1x1024 .f32 := iblk m c 4 t
abbrev I5 (c : Dev nD) (t : Fin cfg0.N) : FVec Ideal S1x1024 .f32 := iblk m c 5 t
abbrev I6 (c : Dev nD) (t : Fin cfg0.N) : FVec Ideal S1024x1024 .bf16 := iblk m c 6 t
abbrev I7 (c : Dev nD) (t : Fin cfg0.N) : FVec Ideal S1x1024 .f32 := iblk m c 7 t
abbrev I8 (c : Dev nD) (t : Fin cfg0.N) : FVec Ideal S1x1024 .f32 := iblk m c 8 t
abbrev I9 (c : Dev nD) (t : Fin cfg0.N) : FVec Ideal S1x1024 .f32 := iblk m c 9 t

/-! ## The staged blocks, read at an index -/

theorem blk0 (c : Dev nD) (t : Fin cfg0.N) (r : Fin 512) (e : Fin 1024) :
    I0 m c t (ix2 r e) = A0 m c (ix2 (row t r) e) := by
  show V m c main_arg0 (((cfg0.win 0).blk t).view.emb (ix2 r e)) = _
  rw [V_main_arg0]
  refine congrArg (A0 m c) (funext fun a => Fin.ext ?_)
  obtain ⟨e0, e1, -⟩ := idx_facts t
  match a with
  | ⟨0, _⟩ => show win0_0.index t (0 : Fin 2) * 512 + 1 * r.val = t.val * 512 + r.val; omega
  | ⟨1, _⟩ => show win0_0.index t (1 : Fin 2) * 1024 + 1 * e.val = e.val; omega

theorem blk1 (c : Dev nD) (t : Fin cfg0.N) (r : Fin 512) (e : Fin 1024) :
    I1 m c t (ix2 r e) = A1 m c (ix2 (row t r) e) := by
  show V m c main_arg1 (((cfg0.win 1).blk t).view.emb (ix2 r e)) = _
  rw [V_main_arg1]
  refine congrArg (A1 m c) (funext fun a => Fin.ext ?_)
  obtain ⟨-, -, e0, e1, -⟩ := idx_facts t
  match a with
  | ⟨0, _⟩ => show win0_1.index t (0 : Fin 2) * 512 + 1 * r.val = t.val * 512 + r.val; omega
  | ⟨1, _⟩ => show win0_1.index t (1 : Fin 2) * 1024 + 1 * e.val = e.val; omega

theorem blk2 (c : Dev nD) (t : Fin cfg0.N) (j e : Fin 1024) : I2 m c t (ix2 j e) = W24 m c (ix2 j e) := by
  show V m c main_v24 (((cfg0.win 2).blk t).view.emb (ix2 j e)) = _
  refine congrArg (W24 m c) (funext fun a => Fin.ext ?_)
  obtain ⟨-, -, -, -, e0, e1, -⟩ := idx_facts t
  match a with
  | ⟨0, _⟩ => show win0_2.index t (0 : Fin 2) * 1024 + 1 * j.val = j.val; omega
  | ⟨1, _⟩ => show win0_2.index t (1 : Fin 2) * 1024 + 1 * e.val = e.val; omega

theorem blk3 (c : Dev nD) (t : Fin cfg0.N) (e : Fin 1024) : I3 m c t (ix2 0 e) = B32 m c (ix2 0 e) := by
  show V m c main_v32 (((cfg0.win 3).blk t).view.emb (ix2 0 e)) = _
  refine congrArg (B32 m c) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 1024 + 1 * e.val = e.val; omega

theorem blk4 (c : Dev nD) (t : Fin cfg0.N) (e : Fin 1024) : I4 m c t (ix2 0 e) = G34 m c (ix2 0 e) := by
  show V m c main_v34 (((cfg0.win 4).blk t).view.emb (ix2 0 e)) = _
  refine congrArg (G34 m c) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 1024 + 1 * e.val = e.val; omega

theorem blk5 (c : Dev nD) (t : Fin cfg0.N) (e : Fin 1024) : I5 m c t (ix2 0 e) = H35 m c (ix2 0 e) := by
  show V m c main_v35 (((cfg0.win 5).blk t).view.emb (ix2 0 e)) = _
  refine congrArg (H35 m c) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 1024 + 1 * e.val = e.val; omega

/-- The array index under a block index of a result window. -/
theorem emb10 (t : Fin cfg0.N) (r : Fin 512) (e : Fin 1024) :
    ((cfg0.win 10).blk t).view.emb (ix2 r e) = ix2 (row t r) e := by
  refine funext fun a => Fin.ext ?_
  obtain ⟨-, -, -, -, -, -, -, -, -, -, -, -, -, -, -, -, -, -, -, -, e0, e1, -⟩ := idx_facts t
  match a with
  | ⟨0, _⟩ => show win0_10.index t (0 : Fin 2) * 512 + 1 * r.val = t.val * 512 + r.val; omega
  | ⟨1, _⟩ => show win0_10.index t (1 : Fin 2) * 1024 + 1 * e.val = e.val; omega

/-- WHAT POINT `t` WRITES BACK to the first result: block `t` of `G` of the user-side arguments. -/
theorem flushed10_eq (c : Dev nD) (t : Fin cfg0.N)
    (h0 : AllR (A0 m c)) (h1 : AllR (A1 m c)) (h2 : AllR (A2 m c)) (h3 : AllR (A3 m c)) (h4 : AllR (A4 m c))
    (h5 : AllR (A5 m c)) (h14 : AllR (A14 m c)) :
    (dats m 0 c).flushed 10 t = ((cfg0.win 10).blk t).view.read (Elt Ideal)
      (G (A0 m c) (A1 m c) (A2 m c) (A3 m c) (A4 m c) (A5 m c) (A14 m c) (A10 m c) (A11 m c)) := by
  rw [Value.flushed10]
  unfold out0_10
  funext y
  refine Eq.trans (Value.canon10_eq (F := Ideal) (View.ld (iblk m c 0 t) r0_0) (View.ld (iblk m c 1 t) r0_0) (View.ld (iblk m c 2 t) r0_1)
      (View.ld (iblk m c 3 t) r0_2) (View.ld (iblk m c 4 t) r0_2) (View.ld (iblk m c 5 t) r0_2) y) ?_
  simp only [View.ld_unit_zero (S := S512x1024) hz, View.ld_unit_zero (S := S1024x1024) hz, View.ld_unit_zero (S := S1x1024) hz]
  obtain ⟨r, e, rfl⟩ : ∃ (r : Fin 512) (e : Fin 1024), y = ix2 r e := ⟨y 0, y 1, eq_ix2 y⟩
  show E10 (F := Ideal) (I0 m c t) (I1 m c t) (I2 m c t) (I3 m c t) (I4 m c t) (I5 m c t) (ix2 r e)
    = G (A0 m c) (A1 m c) (A2 m c) (A3 m c) (A4 m c) (A5 m c) (A14 m c) (A10 m c) (A11 m c) (((cfg0.win 10).blk t).view.emb (ix2 r e))
  rw [emb10, G_apply, ln_eq_lnRow]
  refine (E10_apply (I0 m c t) (I1 m c t) (I2 m c t) (I3 m c t) (I4 m c t) (I5 m c t) r e
    (fun e' => pre (A0 m c) (A1 m c) (A2 m c) (A3 m c) (A4 m c) (A5 m c) (A14 m c) (row t r) e') ?_ ?_).trans ?_
  · intro e'
    rw [blk0, blk3, V32_apply]
    rw [Finset.sum_congr rfl fun j _ => show I1 m c t (ix2 r j) * I2 m c t (ix2 j e')
        = A1 m c (ix2 (row t r) j) * ((∑ k : Fin 1024, A2 m c (ix2 (hi k) j) * A4 m c (ix2 e' k)) * A14 m c (ix1 0)) from by
      rw [blk1, blk2, V24_apply]]
    exact fold_eq (A0 m c (ix2 (row t r) e')) (A14 m c (ix1 0)) (A5 m c (ix1 e')) (fun j => A1 m c (ix2 (row t r) j))
      (fun k => A3 m c (ix1 (hi k))) (fun k => A4 m c (ix2 e' k)) (fun k j => A2 m c (ix2 (hi k) j))
      (h0 _) (h14 _) (h5 _) (fun _ => h1 _) (fun _ => h3 _) (fun _ => h4 _) (fun _ _ => h2 _)
  · exact fun e' => pre_isR _ _ _ _ _ _ _ h0 h1 h2 h3 h4 h5 h14 _ _
  · have hg : (fun e => I4 m c t (ix2 0 e)) = fun e => A10 m c (ix1 e) := funext fun e => by
      rw [blk4, V34_apply]
    have hb : (fun e => I5 m c t (ix2 0 e)) = fun e => A11 m c (ix1 e) := funext fun e => by
      rw [blk5, V35_apply]
    rw [hg, hb]

/-- An index of the first result array is in point `t`'s block iff each coordinate is in the block's range. -/
theorem mem_blk10 (t : Fin cfg0.N) (i : S32768x1024.Idx) :
    i ∈ ((cfg0.win 10).blk t).view.set ↔ ∀ a : Fin 2, win0_10.index t a * S512x1024.size a ≤ (i a).val
      ∧ (i a).val < win0_10.index t a * S512x1024.size a + S512x1024.size a := by
  show i ∈ ((View.whole main_v38_0).slice (win0_10.rect t)).set ↔ _
  rw [View.set_slice_whole, Rect.mem_set_unit]
  exact Iff.rfl

/-- The 64 blocks tile the first result array: row `i₀` lies in the block of point `i₀ / 512`. -/
theorem cover10 (i : S32768x1024.Idx) :
    ∃ t : Fin cfg0.N, (cfg0.win 10).flush t = true ∧ i ∈ ((cfg0.win 10).blk t).view.set := by
  have hi0 : (i 0).val < 32768 := (i 0).isLt
  have hi1 : (i 1).val < 1024 := (i 1).isLt
  have hN : cfg0.N = 64 := N_0
  refine ⟨⟨(i 0).val / 512, by rw [hN]; omega⟩, flush0_10 _, ?_⟩
  rw [mem_blk10]
  obtain ⟨-, -, -, -, -, -, -, -, -, -, -, -, -, -, -, -, -, -, -, -, e0, e1, -⟩ := idx_facts ⟨(i 0).val / 512, by rw [hN]; omega⟩
  intro a
  match a with
  | ⟨0, _⟩ =>
    show win0_10.index _ (0 : Fin 2) * 512 ≤ (i 0).val ∧ (i 0).val < win0_10.index _ (0 : Fin 2) * 512 + 512
    rw [e0]; show (i 0).val / 512 * 512 ≤ (i 0).val ∧ (i 0).val < (i 0).val / 512 * 512 + 512; omega
  | ⟨1, _⟩ =>
    show win0_10.index _ (1 : Fin 2) * 1024 ≤ (i 1).val ∧ (i 1).val < win0_10.index _ (1 : Fin 2) * 1024 + 1024
    rw [e1]; omega

/-- THE FIRST RESULT ARRAY after the run is `G` of the user-side arguments. -/
theorem final10 (c : Dev nD)
    (h0 : AllR (A0 m c)) (h1 : AllR (A1 m c)) (h2 : AllR (A2 m c)) (h3 : AllR (A3 m c)) (h4 : AllR (A4 m c))
    (h5 : AllR (A5 m c)) (h14 : AllR (A14 m c)) :
    (dats m 0 c).arrAt 10 cfg0.N = G (A0 m c) (A1 m c) (A2 m c) (A3 m c) (A4 m c) (A5 m c) (A14 m c) (A10 m c) (A11 m c) :=
  (dats m 0 c).arrAt_eq_of_cover 10 _ (fun t _ => flushed10_eq m c t h0 h1 h2 h3 h4 h5 h14) cover10

/-! ## The item side: the second result -/

theorem blk6 (c : Dev nD) (t : Fin cfg0.N) (j e : Fin 1024) : I6 m c t (ix2 j e) = W27 m c (ix2 j e) := by
  show V m c main_v27 (((cfg0.win 6).blk t).view.emb (ix2 j e)) = _
  refine congrArg (W27 m c) (funext fun a => Fin.ext ?_)
  obtain ⟨-, -, -, -, -, -, -, -, -, -, -, -, e0, e1, -⟩ := idx_facts t
  match a with
  | ⟨0, _⟩ => show win0_6.index t (0 : Fin 2) * 1024 + 1 * j.val = j.val; omega
  | ⟨1, _⟩ => show win0_6.index t (1 : Fin 2) * 1024 + 1 * e.val = e.val; omega

theorem blk7 (c : Dev nD) (t : Fin cfg0.N) (e : Fin 1024) : I7 m c t (ix2 0 e) = B33 m c (ix2 0 e) := by
  show V m c main_v33 (((cfg0.win 7).blk t).view.emb (ix2 0 e)) = _
  refine congrArg (B33 m c) (funext fun a => Fin.ext ?_)
  obtain ⟨-, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 1024 + 1 * e.val = e.val; omega

theorem blk8 (c : Dev nD) (t : Fin cfg0.N) (e : Fin 1024) : I8 m c t (ix2 0 e) = G36 m c (ix2 0 e) := by
  show V m c main_v36 (((cfg0.win 8).blk t).view.emb (ix2 0 e)) = _
  refine congrArg (G36 m c) (funext fun a => Fin.ext ?_)
  obtain ⟨-, -, -, -, -, -, -, -, -, -, -, -, -, -, -, -, e0, e1, -⟩ := idx_facts t
  match a with
  | ⟨0, _⟩ => show win0_8.index t (0 : Fin 2) * 1 + 1 * 0 = 0; omega
  | ⟨1, _⟩ => show win0_8.index t (1 : Fin 2) * 1024 + 1 * e.val = e.val; omega

theorem blk9 (c : Dev nD) (t : Fin cfg0.N) (e : Fin 1024) : I9 m c t (ix2 0 e) = H37 m c (ix2 0 e) := by
  show V m c main_v37 (((cfg0.win 9).blk t).view.emb (ix2 0 e)) = _
  refine congrArg (H37 m c) (funext fun a => Fin.ext ?_)
  obtain ⟨-, -, -, -, -, -, -, -, -, -, -, -, -, -, -, -, -, -, e0, e1, -⟩ := idx_facts t
  match a with
  | ⟨0, _⟩ => show win0_9.index t (0 : Fin 2) * 1 + 1 * 0 = 0; omega
  | ⟨1, _⟩ => show win0_9.index t (1 : Fin 2) * 1024 + 1 * e.val = e.val; omega

theorem emb11 (t : Fin cfg0.N) (r : Fin 512) (e : Fin 1024) :
    ((cfg0.win 11).blk t).view.emb (ix2 r e) = ix2 (row t r) e := by
  refine funext fun a => Fin.ext ?_
  obtain ⟨-, -, -, -, -, -, -, -, -, -, -, -, -, -, -, -, -, -, -, -, -, -, e0, e1⟩ := idx_facts t
  match a with
  | ⟨0, _⟩ => show win0_11.index t (0 : Fin 2) * 512 + 1 * r.val = t.val * 512 + r.val; omega
  | ⟨1, _⟩ => show win0_11.index t (1 : Fin 2) * 1024 + 1 * e.val = e.val; omega

/-- WHAT POINT `t` WRITES BACK to the second result: block `t` of `G` of the item-side arguments (the item embedding is
    the residual, the user embedding the key and value). -/
theorem flushed11_eq (c : Dev nD) (t : Fin cfg0.N)
    (h0 : AllR (A0 m c)) (h1 : AllR (A1 m c)) (h6 : AllR (A6 m c)) (h7 : AllR (A7 m c)) (h8 : AllR (A8 m c))
    (h9 : AllR (A9 m c)) (h15 : AllR (A15 m c)) :
    (dats m 0 c).flushed 11 t = ((cfg0.win 11).blk t).view.read (Elt Ideal)
      (G (A1 m c) (A0 m c) (A6 m c) (A7 m c) (A8 m c) (A9 m c) (A15 m c) (A12 m c) (A13 m c)) := by
  rw [Value.flushed11]
  unfold out0_11
  funext y
  refine Eq.trans (Value.canon11_eq (F := Ideal) (View.ld (iblk m c 0 t) r0_0) (View.ld (iblk m c 1 t) r0_0) (View.ld (iblk m c 6 t) r0_1)
      (View.ld (iblk m c 7 t) r0_2) (View.ld (iblk m c 8 t) r0_2) (View.ld (iblk m c 9 t) r0_2) y) ?_
  simp only [View.ld_unit_zero (S := S512x1024) hz, View.ld_unit_zero (S := S1024x1024) hz, View.ld_unit_zero (S := S1x1024) hz]
  obtain ⟨r, e, rfl⟩ : ∃ (r : Fin 512) (e : Fin 1024), y = ix2 r e := ⟨y 0, y 1, eq_ix2 y⟩
  show E11 (F := Ideal) (I0 m c t) (I1 m c t) (I6 m c t) (I7 m c t) (I8 m c t) (I9 m c t) (ix2 r e)
    = G (A1 m c) (A0 m c) (A6 m c) (A7 m c) (A8 m c) (A9 m c) (A15 m c) (A12 m c) (A13 m c) (((cfg0.win 11).blk t).view.emb (ix2 r e))
  rw [emb11, G_apply, ln_eq_lnRow]
  refine (E11_apply (I0 m c t) (I1 m c t) (I6 m c t) (I7 m c t) (I8 m c t) (I9 m c t) r e
    (fun e' => pre (A1 m c) (A0 m c) (A6 m c) (A7 m c) (A8 m c) (A9 m c) (A15 m c) (row t r) e') ?_ ?_).trans ?_
  · intro e'
    rw [blk1, blk7, V33_apply]
    rw [Finset.sum_congr rfl fun j _ => show I0 m c t (ix2 r j) * I6 m c t (ix2 j e')
        = A0 m c (ix2 (row t r) j) * ((∑ k : Fin 1024, A6 m c (ix2 (hi k) j) * A8 m c (ix2 e' k)) * A15 m c (ix1 0)) from by
      rw [blk0, blk6, V27_apply]]
    exact fold_eq (A1 m c (ix2 (row t r) e')) (A15 m c (ix1 0)) (A9 m c (ix1 e')) (fun j => A0 m c (ix2 (row t r) j))
      (fun k => A7 m c (ix1 (hi k))) (fun k => A8 m c (ix2 e' k)) (fun k j => A6 m c (ix2 (hi k) j))
      (h1 _) (h15 _) (h9 _) (fun _ => h0 _) (fun _ => h7 _) (fun _ => h8 _) (fun _ _ => h6 _)
  · exact fun e' => pre_isR _ _ _ _ _ _ _ h1 h0 h6 h7 h8 h9 h15 _ _
  · have hg : (fun e => I8 m c t (ix2 0 e)) = fun e => A12 m c (ix1 e) := funext fun e => by
      rw [blk8, V36_apply]
    have hb : (fun e => I9 m c t (ix2 0 e)) = fun e => A13 m c (ix1 e) := funext fun e => by
      rw [blk9, V37_apply]
    rw [hg, hb]

/-- An index of the second result array is in point `t`'s block iff each coordinate is in the block's range. -/
theorem mem_blk11 (t : Fin cfg0.N) (i : S32768x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v38_1).slice (win0_11.rect t)).set ↔ _
  rw [View.set_slice_whole, Rect.mem_set_unit]
  exact Iff.rfl

/-- The 64 blocks tile the second result array as well. -/
theorem cover11 (i : S32768x1024.Idx) :
    ∃ t : Fin cfg0.N, (cfg0.win 11).flush t = true ∧ i ∈ ((cfg0.win 11).blk t).view.set := by
  have hi0 : (i 0).val < 32768 := (i 0).isLt
  have hi1 : (i 1).val < 1024 := (i 1).isLt
  have hN : cfg0.N = 64 := N_0
  refine ⟨⟨(i 0).val / 512, by rw [hN]; omega⟩, flush0_11 _, ?_⟩
  rw [mem_blk11]
  obtain ⟨-, -, -, -, -, -, -, -, -, -, -, -, -, -, -, -, -, -, -, -, -, -, e0, e1⟩ := idx_facts ⟨(i 0).val / 512, by rw [hN]; omega⟩
  intro a
  match a with
  | ⟨0, _⟩ =>
    show win0_11.index _ (0 : Fin 2) * 512 ≤ (i 0).val ∧ (i 0).val < win0_11.index _ (0 : Fin 2) * 512 + 512
    rw [e0]; show (i 0).val / 512 * 512 ≤ (i 0).val ∧ (i 0).val < (i 0).val / 512 * 512 + 512; omega
  | ⟨1, _⟩ =>
    show win0_11.index _ (1 : Fin 2) * 1024 ≤ (i 1).val ∧ (i 1).val < win0_11.index _ (1 : Fin 2) * 1024 + 1024
    rw [e1]; omega

/-- THE SECOND RESULT ARRAY after the run is `G` of the item-side arguments. -/
theorem final11 (c : Dev nD)
    (h0 : AllR (A0 m c)) (h1 : AllR (A1 m c)) (h6 : AllR (A6 m c)) (h7 : AllR (A7 m c)) (h8 : AllR (A8 m c))
    (h9 : AllR (A9 m c)) (h15 : AllR (A15 m c)) :
    (dats m 0 c).arrAt 11 cfg0.N = G (A1 m c) (A0 m c) (A6 m c) (A7 m c) (A8 m c) (A9 m c) (A15 m c) (A12 m c) (A13 m c) :=
  (dats m 0 c).arrAt_eq_of_cover 11 _ (fun t _ => flushed11_eq m c t h0 h1 h6 h7 h8 h9 h15) cover11

end Cert.KernelIdeal.KBlock

end
-- ==== Proof.RefUser.lean ====
/-
  The reference's first result, read index by index: it is the layer's function `G` of the user-side arguments.
-/
import proofs.«400539_j33011118637072_3_alg».proof.Proof.Gen.ReferenceIdeal.Read
import proofs.«400539_j33011118637072_3_alg».proof.Proof.Algebra
import Idealize.ShloMosaic.PureOps.Reduce

noncomputable section

namespace Cert.ReferenceIdeal.RefUser

open Idealize.ShloMosaic Idealize.ShloMosaic.ValueIdx Cert.Spec Cert.ReferenceIdeal Cert.ReferenceIdeal.Gen Cert.ReferenceIdeal.Read

variable (x0 x1 : (⟨S32768x1024, .f32⟩ : BufTy).Contents (Elt Ideal)) (x2 : (⟨S3072x1024, .f32⟩ : BufTy).Contents (Elt Ideal))
  (x3 : (⟨S3072, .f32⟩ : BufTy).Contents (Elt Ideal)) (x4 : (⟨S1024x1024, .f32⟩ : BufTy).Contents (Elt Ideal))
  (x5 x10 x11 : (⟨S1024, .f32⟩ : BufTy).Contents (Elt Ideal)) (x14 : (⟨S1, .f32⟩ : BufTy).Contents (Elt Ideal))

/-! ## The three projections -/

/-- Row `k` of the stacked in-projection: the query projection's row `k`. -/
abbrev lo (k : Fin 1024) : Fin 3072 := ⟨k.val, by have := k.isLt; omega⟩
/-- Row `1024 + k` of the stacked in-projection: the key projection's row `k`. -/
abbrev mid (k : Fin 1024) : Fin 3072 := ⟨1024 + k.val, by have := k.isLt; omega⟩

/-- The query projection at `(b, e)`. -/
theorem q_at (b : Fin 32768) (e : Fin 1024) :
    val_main_v10 (F := Ideal) x0 x2 x3 (ix2 b e)
      = (∑ j : Fin 1024, x0 (ix2 b j) * x2 (ix2 (lo e) j)) + x3 (ix1 (lo e)) := by
  rw [val_main_v10_apply, val_main_v7_apply, val_main_v9_apply, val_main_v8_apply, val_main_v3_apply]
  refine congrArg₂ (· + ·) (Finset.sum_congr rfl fun j _ => ?_) (congrArg x3 ?_)
  · rw [val_main_v6_apply, val_main_v0_apply]
    refine congrArg₂ (· * ·) (congrArg x0 ?_) (congrArg x2 ?_)
    · funext a; match a with | ⟨0, _⟩ => rfl | ⟨1, _⟩ => rfl
    · funext a; match a with | ⟨0, _⟩ => rfl | ⟨1, _⟩ => rfl
  · funext a; match a with | ⟨0, _⟩ => rfl

/-- The key projection at `(b, e)`. -/
theorem k_at (b : Fin 32768) (e : Fin 1024) :
    val_main_v16 (F := Ideal) x1 x2 x3 (ix2 b e)
      = (∑ j : Fin 1024, x1 (ix2 b j) * x2 (ix2 (mid e) j)) + x3 (ix1 (mid e)) := by
  rw [val_main_v16_apply, val_main_v13_apply, val_main_v15_apply, val_main_v14_apply, val_main_v4_apply]
  refine congrArg₂ (· + ·) (Finset.sum_congr rfl fun j _ => ?_) (congrArg x3 ?_)
  · rw [val_main_v12_apply, val_main_v1_apply]
    refine congrArg₂ (· * ·) (congrArg x1 ?_) (congrArg x2 ?_)
    · funext a; match a with | ⟨0, _⟩ => rfl | ⟨1, _⟩ => rfl
    · funext a; match a with | ⟨0, _⟩ => rfl | ⟨1, _⟩ => rfl
  · funext a; match a with | ⟨0, _⟩ => rfl

/-- The value projection at `(b, e)`. -/
theorem v_at (b : Fin 32768) (e : Fin 1024) :
    val_main_v22 (F := Ideal) x1 x2 x3 (ix2 b e) = vproj x1 x2 x3 b e := by
  rw [val_main_v22_apply, val_main_v19_apply, val_main_v21_apply, val_main_v20_apply, val_main_v5_apply]
  unfold vproj
  refine congrArg₂ (· + ·) (Finset.sum_congr rfl fun j _ => ?_) (congrArg x3 ?_)
  · rw [val_main_v18_apply, val_main_v2_apply]
    refine congrArg₂ (· * ·) (congrArg x1 ?_) (congrArg x2 ?_)
    · funext a; match a with | ⟨0, _⟩ => rfl | ⟨1, _⟩ => rfl
    · funext a; match a with | ⟨0, _⟩ => rfl | ⟨1, _⟩ => rfl
  · funext a; match a with | ⟨0, _⟩ => rfl

/-- The query projection is a real number at every index. -/
theorem q_isR (h0 : AllR x0) (h2 : AllR x2) (h3 : AllR x3) (i : S32768x1024.Idx) :
    IsR (val_main_v10 (F := Ideal) x0 x2 x3 i) := by
  obtain ⟨b, e, rfl⟩ : ∃ b e, i = ix2 b e := ⟨i 0, i 1, eq_ix2 i⟩
  rw [q_at]
  exact IsR.add (IsR.sum _ _ fun j _ => IsR.mul (h0 _) (h2 _)) (h3 _)

/-- The key projection is a real number at every index. -/
theorem k_isR (h1 : AllR x1) (h2 : AllR x2) (h3 : AllR x3) (i : S32768x1024.Idx) :
    IsR (val_main_v16 (F := Ideal) x1 x2 x3 i) := by
  obtain ⟨b, e, rfl⟩ : ∃ b e, i = ix2 b e := ⟨i 0, i 1, eq_ix2 i⟩
  rw [k_at]
  exact IsR.add (IsR.sum _ _ fun j _ => IsR.mul (h1 _) (h2 _)) (h3 _)

/-! ## The scores and the softmax over the single key -/

/-- The score is a real number at every index: a sum of 128 products of real numbers over the nonzero real `√128`. -/
theorem score_isR (h0 : AllR x0) (h1 : AllR x1) (h2 : AllR x2) (h3 : AllR x3) (i : S32768x8x1.Idx) :
    IsR (val_main_v29 (F := Ideal) x0 x1 x2 x3 i) := by
  rw [val_main_v29_apply, val_main_v26_apply, val_main_v25_apply, val_main_v28_apply, val_main_v27_apply,
    val_main_cst_0_apply, val_main_cst_apply]
  obtain ⟨r, hr, hs⟩ := sqrt_128
  show IsR (Ideal.div (Ideal.ofBits .f32 0x00000000#32 + ∑ k : Fin 128, _) (Ideal.sqrt (Ideal.ofBits .f32 0x43000000#32)))
  rw [hs, Ideal.ofBits_zero_f32]
  refine IsR.div_coe (IsR.add IsR.zero (IsR.sum _ _ fun k _ => ?_)) hr
  rw [val_main_v24_apply, val_main_v11_apply, val_main_v17_apply]
  exact IsR.mul (q_isR x0 x2 x3 h0 h2 h3 _) (k_isR x1 x2 x3 h1 h2 h3 _)

/-- The scores' last axis, of extent one, is the one a maximum and a sum are taken over. -/
theorem reduces_last : S32768x8x1.Reduces [2] S32768x8 := by decide

/-- The index over `(b, h)` with `k` inserted on the last axis. -/
theorem lift_at (b : Fin 32768) (h : Fin 8) (k : Fin 1) :
    reduces_last.lift (ix2 b h) k = ix3 b h k := by
  funext c
  match c with
  | ⟨0, _⟩ => rfl
  | ⟨1, _⟩ => rfl
  | ⟨2, _⟩ => rfl

/-- A fold over an axis of extent one is one application of the operation. -/
theorem fold_one {α : Type} (op : α → α → α) [Std.Commutative op] [Std.Associative op] (init : α) (f : Fin 1 → α) :
    (Finset.univ : Finset (Fin 1)).fold op init f = op (f 0) init := by
  rw [Finset.univ_unique, Finset.fold_singleton]
  rfl

/-- The maximum over the single key, from `−∞`. -/
theorem v30_at (b : Fin 32768) (h : Fin 8) :
    val_main_v30 (F := Ideal) x0 x1 x2 x3 (ix2 b h) = max (val_main_v29 (F := Ideal) x0 x1 x2 x3 (ix3 b h 0)) ⊥ := by
  unfold val_main_v30
  refine (Host.reduce_eq_fold_single FloatOps.maximumf _ _ reducesTo_S32768x8x1_S32768x8_d2 reduces_last h_S_ (ix2 b h)).trans ?_
  refine (fold_one FloatOps.maximumf _ _).trans ?_
  show max (val_main_v29 (F := Ideal) x0 x1 x2 x3 (reduces_last.lift (ix2 b h) (0 : Fin 1))) (Ideal.ofBits .f32 0xFF800000#32) = _
  rw [ofBits_neg_inf]
  exact congrArg (fun i => max (val_main_v29 (F := Ideal) x0 x1 x2 x3 i) ⊥) (lift_at b h 0)

/-- The maximum the softmax subtracts is the score itself. -/
theorem v33_at (b : Fin 32768) (h : Fin 8) :
    val_main_v33 (F := Ideal) x0 x1 x2 x3 (ix3 b h 0) = val_main_v29 (F := Ideal) x0 x1 x2 x3 (ix3 b h 0) := by
  rw [val_main_v33_apply, val_main_v32_apply, val_main_v31_apply, val_main_cst_2_apply]
  have e : idx_main_v33 (ix3 b h (0 : Fin 1)) = ix2 b h := by
    funext a; match a with | ⟨0, _⟩ => rfl | ⟨1, _⟩ => rfl
  rw [e, v30_at]
  show max (Ideal.ofBits .f32 0xFF800000#32) _ = _
  rw [ofBits_neg_inf, max_single]

/-- The softmax weight of the single key is 1. -/
theorem v38_at (h0 : AllR x0) (h1 : AllR x1) (h2 : AllR x2) (h3 : AllR x3) (b : Fin 32768) (h : Fin 8) :
    val_main_v38 (F := Ideal) x0 x1 x2 x3 (ix3 b h 0) = 1 := by
  rw [val_main_v38_apply, val_main_v37_apply, val_main_v36_apply, Fin.sum_univ_one, val_main_cst_3_apply]
  have e : idx_main_v36 (idx_main_v37 (ix3 b h (0 : Fin 1))) 0 = ix3 b h 0 := by
    funext a; match a with | ⟨0, _⟩ => rfl | ⟨1, _⟩ => rfl | ⟨2, _⟩ => rfl
  rw [e, val_main_v35_apply, val_main_v34_apply, v33_at]
  show Ideal.div (Ideal.exp (_ - _)) (Ideal.ofBits .f32 0x00000000#32 + Ideal.exp (_ - _)) = 1
  rw [Ideal.ofBits_zero_f32]
  exact softmax_single _ (score_isR x0 x1 x2 x3 h0 h1 h2 h3 _)

/-- The softmax weight is 1 at every index. -/
theorem v38_one (h0 : AllR x0) (h1 : AllR x1) (h2 : AllR x2) (h3 : AllR x3) (i : S32768x8x1.Idx) :
    val_main_v38 (F := Ideal) x0 x1 x2 x3 i = 1 := by
  obtain ⟨b, h, d, rfl⟩ : ∃ b h d, i = ix3 b h d := ⟨i 0, i 1, i 2, eq_ix3 i⟩
  obtain rfl : d = 0 := Subsingleton.elim _ _
  exact v38_at x0 x1 x2 x3 h0 h1 h2 h3 b h

/-! ## The attention output, the out-projection and the residual -/

/-- Splitting a column into (head, lane) and merging it back is the identity on indices. -/
theorem split_merge (b : Fin 32768) (k : Fin 1024) : idx_main_v23 (idx_main_v41 (ix2 b k)) = ix2 b k := by
  have hb := b.isLt
  have hk := k.isLt
  funext a
  match a with
  | ⟨0, _⟩ =>
    refine Fin.ext ?_
    show (((b.val * 1024 + k.val) / 1024 * 8 + (b.val * 1024 + k.val) / 128 % 8) * 128 + (b.val * 1024 + k.val) % 128) / 1024 = b.val
    omega
  | ⟨1, _⟩ =>
    refine Fin.ext ?_
    show (((b.val * 1024 + k.val) / 1024 * 8 + (b.val * 1024 + k.val) / 128 % 8) * 128 + (b.val * 1024 + k.val) % 128) % 1024 = k.val
    omega

/-- Weight 1 times the value: the attention output at `(b, k)` is the value projection. -/
theorem v41_at (h0 : AllR x0) (h1 : AllR x1) (h2 : AllR x2) (h3 : AllR x3) (b : Fin 32768) (k : Fin 1024) :
    val_main_v41 (F := Ideal) x0 x1 x2 x3 (ix2 b k) = vproj x1 x2 x3 b k := by
  rw [val_main_v41_apply, val_main_v40_apply, val_main_v39_apply, val_main_v23_apply,
    v38_one x0 x1 x2 x3 h0 h1 h2 h3, split_merge, v_at]
  exact one_mul _

/-- The out-projection and its bias at `(b, e)`. -/
theorem v46_at (h0 : AllR x0) (h1 : AllR x1) (h2 : AllR x2) (h3 : AllR x3) (b : Fin 32768) (e : Fin 1024) :
    val_main_v46 (F := Ideal) x0 x1 x2 x3 x4 x5 (ix2 b e) = attn x1 x2 x3 x4 x5 b e := by
  rw [val_main_v46_apply, val_main_v43_apply, val_main_v45_apply, val_main_v44_apply]
  unfold attn
  refine congrArg₂ (· + ·) (Finset.sum_congr rfl fun k _ => ?_) (congrArg x5 ?_)
  · have e1 : lidx_main_v43 (ix2 b e) k = ix2 b k := by
      funext a; match a with | ⟨0, _⟩ => rfl | ⟨1, _⟩ => rfl
    rw [val_main_v42_apply, e1, v41_at x0 x1 x2 x3 h0 h1 h2 h3]
    refine congrArg (fun i => vproj x1 x2 x3 b k * x4 i) ?_
    funext a; match a with | ⟨0, _⟩ => rfl | ⟨1, _⟩ => rfl
  · funext a; match a with | ⟨0, _⟩ => rfl

/-- The residual sum at `(b, e)`. -/
theorem v97_at (h0 : AllR x0) (h1 : AllR x1) (h2 : AllR x2) (h3 : AllR x3) (b : Fin 32768) (e : Fin 1024) :
    val_main_v97 (F := Ideal) x0 x1 x2 x3 x4 x5 x14 (ix2 b e) = pre x0 x1 x2 x3 x4 x5 x14 b e := by
  rw [val_main_v97_apply, val_main_v96_apply, val_main_v95_apply, val_main_v94_apply,
    v46_at x0 x1 x2 x3 x4 x5 h0 h1 h2 h3]
  unfold pre
  refine congrArg₂ (· + ·) rfl (congrArg₂ (· * ·) (congrArg x14 ?_) rfl)
  funext a; match a with | ⟨0, _⟩ => rfl

/-! ## The layer norm -/

/-- The row mean. -/
theorem v101_at (h0 : AllR x0) (h1 : AllR x1) (h2 : AllR x2) (h3 : AllR x3) (b : Fin 32768) (z : Fin 1) :
    val_main_v101 (F := Ideal) x0 x1 x2 x3 x4 x5 x14 (ix2 b z) = mean (pre x0 x1 x2 x3 x4 x5 x14) b := by
  rw [val_main_v101_apply, val_main_v99_apply, val_main_v98_apply, val_main_v100_apply, val_main_cst_10_apply,
    val_main_cst_9_apply]
  unfold mean
  show Ideal.div (Ideal.ofBits .f32 0x00000000#32 + ∑ k : Fin 1024, _) (Ideal.ofBits .f32 0x44800000#32) = Ideal.div _ c1024
  rw [Ideal.ofBits_zero_f32, zero_add]
  refine congrArg₂ Ideal.div (Finset.sum_congr rfl fun k _ => ?_) rfl
  have e1 : idx_main_v98 (idx_main_v99 (ix2 b z)) k = ix2 b k := by
    funext a; match a with | ⟨0, _⟩ => rfl | ⟨1, _⟩ => rfl
  rw [e1, v97_at x0 x1 x2 x3 x4 x5 x14 h0 h1 h2 h3]

/-- The row variance. -/
theorem v108_at (h0 : AllR x0) (h1 : AllR x1) (h2 : AllR x2) (h3 : AllR x3) (b : Fin 32768) (z : Fin 1) :
    val_main_v108 (F := Ideal) x0 x1 x2 x3 x4 x5 x14 (ix2 b z) = var (pre x0 x1 x2 x3 x4 x5 x14) b := by
  rw [val_main_v108_apply, val_main_v106_apply, val_main_v105_apply, val_main_v107_apply, val_main_cst_12_apply,
    val_main_cst_11_apply]
  unfold var
  show Ideal.div (Ideal.ofBits .f32 0x00000000#32 + ∑ k : Fin 1024, _) (Ideal.ofBits .f32 0x44800000#32) = Ideal.div _ c1024
  rw [Ideal.ofBits_zero_f32, zero_add]
  refine congrArg₂ Ideal.div (Finset.sum_congr rfl fun k _ => ?_) rfl
  have e1 : idx_main_v105 (idx_main_v106 (ix2 b z)) k = ix2 b k := by
    funext a; match a with | ⟨0, _⟩ => rfl | ⟨1, _⟩ => rfl
  have e2 : idx_main_v102 (ix2 b k) = ix2 b (0 : Fin 1) := by
    funext a; match a with | ⟨0, _⟩ => rfl | ⟨1, _⟩ => rfl
  rw [e1, val_main_v104_apply, val_main_v103_apply, val_main_v102_apply, e2,
    v97_at x0 x1 x2 x3 x4 x5 x14 h0 h1 h2 h3, v101_at x0 x1 x2 x3 x4 x5 x14 h0 h1 h2 h3]
  rfl

/-- The result at `(b, e)`. -/
theorem v121_at (h0 : AllR x0) (h1 : AllR x1) (h2 : AllR x2) (h3 : AllR x3) (b : Fin 32768) (e : Fin 1024) :
    val_main_v121 (F := Ideal) x0 x1 x2 x3 x4 x5 x10 x11 x14 (ix2 b e)
      = ln (pre x0 x1 x2 x3 x4 x5 x14) x10 x11 b e := by
  have e1 : idx_main_v109 (ix2 b e) = ix2 b (0 : Fin 1) := by
    funext a; match a with | ⟨0, _⟩ => rfl | ⟨1, _⟩ => rfl
  have e2 : idx_main_v114 (ix2 b e) = ix2 b (0 : Fin 1) := by
    funext a; match a with | ⟨0, _⟩ => rfl | ⟨1, _⟩ => rfl
  rw [val_main_v121_apply, val_main_v118_apply, val_main_v115_apply, val_main_v110_apply, val_main_v109_apply,
    val_main_v114_apply, val_main_v113_apply, val_main_v112_apply, val_main_v111_apply, val_main_cst_13_apply,
    val_main_v117_apply, val_main_v116_apply, val_main_v120_apply, val_main_v119_apply, e1, e2,
    v97_at x0 x1 x2 x3 x4 x5 x14 h0 h1 h2 h3, v101_at x0 x1 x2 x3 x4 x5 x14 h0 h1 h2 h3,
    v108_at x0 x1 x2 x3 x4 x5 x14 h0 h1 h2 h3]
  unfold ln
  refine congrArg₂ (· + ·) (congrArg₂ (· * ·) rfl (congrArg x10 ?_)) (congrArg x11 ?_)
  · funext a; match a with | ⟨0, _⟩ => rfl
  · funext a; match a with | ⟨0, _⟩ => rfl

/-- The user side: query the user embedding, key and value the item embedding. -/
theorem user_eq (x0 x1 : (⟨S32768x1024, .f32⟩ : BufTy).Contents (Elt Ideal)) (x2 : (⟨S3072x1024, .f32⟩ : BufTy).Contents (Elt Ideal))
    (x3 : (⟨S3072, .f32⟩ : BufTy).Contents (Elt Ideal)) (x4 : (⟨S1024x1024, .f32⟩ : BufTy).Contents (Elt Ideal))
    (x5 x10 x11 : (⟨S1024, .f32⟩ : BufTy).Contents (Elt Ideal)) (x14 : (⟨S1, .f32⟩ : BufTy).Contents (Elt Ideal))
    (h0 : AllR x0) (h1 : AllR x1) (h2 : AllR x2) (h3 : AllR x3) :
    val_main_v121 (F := Ideal) x0 x1 x2 x3 x4 x5 x10 x11 x14 = G x0 x1 x2 x3 x4 x5 x14 x10 x11 := by
  funext i
  obtain ⟨b, e, rfl⟩ : ∃ b e, i = ix2 b e := ⟨i 0, i 1, eq_ix2 i⟩
  rw [G_apply]
  exact v121_at x0 x1 x2 x3 x4 x5 x10 x11 x14 h0 h1 h2 h3 b e

end Cert.ReferenceIdeal.RefUser

end
-- ==== Proof.RefItem.lean ====
/-
  The reference's second result, read index by index: it is the layer's function `G` of the item-side arguments.
-/
import proofs.«400539_j33011118637072_3_alg».proof.Proof.Gen.ReferenceIdeal.Read
import proofs.«400539_j33011118637072_3_alg».proof.Proof.Algebra

noncomputable section

namespace Cert.ReferenceIdeal.RefItem

open Idealize.ShloMosaic Idealize.ShloMosaic.ValueIdx Cert.Spec Cert.ReferenceIdeal Cert.ReferenceIdeal.Read

/-! ## The query and key projections are real -/

/-- The query projection of real arrays is real at every index. -/
theorem v57_isR (x1 : (⟨S32768x1024, .f32⟩ : BufTy).Contents (Elt Ideal)) (x6 : (⟨S3072x1024, .f32⟩ : BufTy).Contents (Elt Ideal)) (x7 : (⟨S3072, .f32⟩ : BufTy).Contents (Elt Ideal))
    (h1 : AllR x1) (h6 : AllR x6) (h7 : AllR x7) (i : S32768x1024.Idx) :
    IsR (val_main_v57 (F := Ideal) x1 x6 x7 i) := by
  rw [val_main_v57_apply, val_main_v54_apply, val_main_v56_apply, val_main_v55_apply, val_main_v50_apply, Ideal.addf_def]
  refine IsR.add (IsR.sum _ _ (fun k _ => IsR.mul (h1 _) ?_)) (h7 _)
  rw [val_main_v53_apply, val_main_v47_apply]
  exact h6 _

/-- The key projection of real arrays is real at every index. -/
theorem v63_isR (x0 : (⟨S32768x1024, .f32⟩ : BufTy).Contents (Elt Ideal)) (x6 : (⟨S3072x1024, .f32⟩ : BufTy).Contents (Elt Ideal)) (x7 : (⟨S3072, .f32⟩ : BufTy).Contents (Elt Ideal))
    (h0 : AllR x0) (h6 : AllR x6) (h7 : AllR x7) (i : S32768x1024.Idx) :
    IsR (val_main_v63 (F := Ideal) x0 x6 x7 i) := by
  rw [val_main_v63_apply, val_main_v60_apply, val_main_v62_apply, val_main_v61_apply, val_main_v51_apply, Ideal.addf_def]
  refine IsR.add (IsR.sum _ _ (fun k _ => IsR.mul (h0 _) ?_)) (h7 _)
  rw [val_main_v59_apply, val_main_v48_apply]
  exact h6 _

/-- The scaled score of real arrays is real at every index. -/
theorem v76_isR (x0 x1 : (⟨S32768x1024, .f32⟩ : BufTy).Contents (Elt Ideal)) (x6 : (⟨S3072x1024, .f32⟩ : BufTy).Contents (Elt Ideal)) (x7 : (⟨S3072, .f32⟩ : BufTy).Contents (Elt Ideal))
    (h0 : AllR x0) (h1 : AllR x1) (h6 : AllR x6) (h7 : AllR x7) (i : S32768x8x1.Idx) :
    IsR (val_main_v76 (F := Ideal) x0 x1 x6 x7 i) := by
  obtain ⟨r, hr, hs⟩ := sqrt_128
  rw [val_main_v76_apply, val_main_v73_apply, val_main_v72_apply, val_main_v75_apply, val_main_v74_apply,
    val_main_cst_4_apply, val_main_cst_5_apply, Ideal.hostDivf_def, Ideal.hostUnary_sqrt_def, Ideal.ofBits_def,
    Ideal.ofBits_def, hs]
  refine IsR.div_coe (IsR.add ?_ (IsR.sum _ _ (fun k _ => ?_))) hr
  · rw [Ideal.ofBits_zero_f32]; exact IsR.zero
  · rw [val_main_v71_apply, val_main_v58_apply, val_main_v64_apply, Ideal.mulf_def]
    exact IsR.mul (v57_isR x1 x6 x7 h1 h6 h7 _) (v63_isR x0 x6 x7 h0 h6 h7 _)

/-! ## The softmax over the single key -/

/-- A fold over the one-element index set is the operation on its element and the initial value. -/
theorem fold_one {α : Type} (op : α → α → α) [Std.Commutative op] [Std.Associative op] (c : α) (f : Fin 1 → α) :
    (Finset.univ : Finset (Fin 1)).fold op c f = op (f 0) c := by
  rw [Finset.univ_unique, Finset.fold_singleton]
  rfl

/-- The index over `(b, h)` with the single key's coordinate inserted. -/
theorem lift_at (hR : S32768x8x1.Reduces [2] S32768x8) (b : Fin 32768) (h : Fin 8) (k : Fin 1) :
    hR.lift (ix2 b h) k = ix3 b h 0 := by
  funext c
  match c with
  | ⟨0, _⟩ => rfl
  | ⟨1, _⟩ => rfl
  | ⟨2, _⟩ => exact Fin.ext (by have := k.isLt; show k.val = 0; omega)

/-- The maximum over the one key, from the initial value, is the score's maximum with it. -/
theorem v77_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (b : Fin 32768) (h : Fin 8) :
    val_main_v77 (F := Ideal) x0 x1 x6 x7 (ix2 b h)
      = max (val_main_v76 (F := Ideal) x0 x1 x6 x7 (ix3 b h 0)) (Ideal.ofBits .f32 0xFF800000#32) := by
  have hR : S32768x8x1.Reduces [2] S32768x8 := by decide
  unfold val_main_v77
  rw [Host.reduce_eq_fold_single FloatOps.maximumf _ _ Gen.reducesTo_S32768x8x1_S32768x8_d2 hR Gen.h_S_ (ix2 b h)]
  refine (fold_one (FloatOps.maximumf (F := Ideal) (φ := .f32)) _ _).trans ?_
  show max (val_main_v76 (F := Ideal) x0 x1 x6 x7 (hR.lift (ix2 b h) (0 : Fin 1))) (val_main_cst_6 (F := Ideal) _) = _
  rw [lift_at hR b h, val_main_cst_6_apply]
  rfl

/-- Clamped from below by the initial value once more, the maximum is the score. -/
theorem v79_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (b : Fin 32768) (h : Fin 8) :
    val_main_v79 (F := Ideal) x0 x1 x6 x7 (ix2 b h) = val_main_v76 (F := Ideal) x0 x1 x6 x7 (ix3 b h 0) := by
  rw [val_main_v79_apply, val_main_v78_apply, val_main_cst_7_apply, v77_at, Ideal.maximumf_def, Ideal.ofBits_def,
    ofBits_neg_inf]
  exact max_single _

/-- The exponential of the score less its maximum. -/
theorem v82_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (b : Fin 32768) (h : Fin 8) :
    val_main_v82 (F := Ideal) x0 x1 x6 x7 (ix3 b h 0)
      = Ideal.exp (val_main_v76 (F := Ideal) x0 x1 x6 x7 (ix3 b h 0) - val_main_v76 (F := Ideal) x0 x1 x6 x7 (ix3 b h 0)) := by
  have hi : idx_main_v80 (ix3 b h (0 : Fin 1)) = ix2 b h := by
    funext a
    match a with
    | ⟨0, _⟩ => rfl
    | ⟨1, _⟩ => rfl
  rw [val_main_v82_apply, val_main_v81_apply, val_main_v80_apply, hi, v79_at, Ideal.hostUnary_exp_def, Ideal.subf_def]

/-- The softmax's denominator: the sum over the one key, from zero. -/
theorem v83_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (b : Fin 32768) (h : Fin 8) :
    val_main_v83 (F := Ideal) x0 x1 x6 x7 (ix2 b h)
      = 0 + Ideal.exp (val_main_v76 (F := Ideal) x0 x1 x6 x7 (ix3 b h 0) - val_main_v76 (F := Ideal) x0 x1 x6 x7 (ix3 b h 0)) := by
  have hi : idx_main_v83 (ix2 b h) (0 : Fin 1) = ix3 b h 0 := by
    funext a
    match a with
    | ⟨0, _⟩ => rfl
    | ⟨1, _⟩ => rfl
    | ⟨2, _⟩ => rfl
  rw [val_main_v83_apply, val_main_cst_8_apply, Ideal.ofBits_def, Ideal.ofBits_zero_f32, Fin.sum_univ_one, hi, v82_at]

/-- The softmax weight on the single key is one. -/
theorem v85_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (h0 : AllR x0) (h1 : AllR x1) (h6 : AllR x6) (h7 : AllR x7) (b : Fin 32768) (h : Fin 8) :
    val_main_v85 (F := Ideal) x0 x1 x6 x7 (ix3 b h 0) = 1 := by
  have hi : idx_main_v84 (ix3 b h (0 : Fin 1)) = ix2 b h := by
    funext a
    match a with
    | ⟨0, _⟩ => rfl
    | ⟨1, _⟩ => rfl
  rw [val_main_v85_apply, val_main_v84_apply, hi, v83_at, v82_at, Ideal.hostDivf_def]
  exact softmax_single _ (v76_isR x0 x1 x6 x7 h0 h1 h6 h7 _)

/-- Broadcast along the head's width, the weight is one at every index. -/
theorem v86_one (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (h0 : AllR x0) (h1 : AllR x1) (h6 : AllR x6) (h7 : AllR x7) (i : S32768x8x128.Idx) :
    val_main_v86 (F := Ideal) x0 x1 x6 x7 i = 1 := by
  obtain ⟨b, h, d, rfl⟩ : ∃ (b : Fin 32768) (h : Fin 8) (d : Fin 128), i = ix3 b h d := ⟨i 0, i 1, i 2, eq_ix3 i⟩
  have hi : idx_main_v86 (ix3 b h d) = ix3 b h 0 := by
    funext a
    match a with
    | ⟨0, _⟩ => rfl
    | ⟨1, _⟩ => rfl
    | ⟨2, _⟩ => rfl
  rw [val_main_v86_apply, hi, v85_at x0 x1 x6 x7 h0 h1 h6 h7]

/-! ## The attention output is the value projection -/

/-- With weight one, the attention output flattened back is the value projection at the same index. -/
theorem v88_eq (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (h0 : AllR x0) (h1 : AllR x1) (h6 : AllR x6) (h7 : AllR x7) (i : S32768x1024.Idx) :
    val_main_v88 (F := Ideal) x0 x1 x6 x7 i = val_main_v69 (F := Ideal) x0 x6 x7 i := by
  obtain ⟨b, k, rfl⟩ : ∃ (b : Fin 32768) (k : Fin 1024), i = ix2 b k := ⟨i 0, i 1, eq_ix2 i⟩
  have hi : idx_main_v70 (idx_main_v88 (ix2 b k)) = ix2 b k := by
    have hb := b.isLt
    have hk := k.isLt
    funext a
    match a with
    | ⟨0, _⟩ =>
      exact Fin.ext (by
        show (((b.val * 1024 + k.val) / 1024 * 8 + (b.val * 1024 + k.val) / 128 % 8) * 128
          + (b.val * 1024 + k.val) % 128) / 1024 = b.val
        omega)
    | ⟨1, _⟩ =>
      exact Fin.ext (by
        show (((b.val * 1024 + k.val) / 1024 * 8 + (b.val * 1024 + k.val) / 128 % 8) * 128
          + (b.val * 1024 + k.val) % 128) % 1024 = k.val
        omega)
  rw [val_main_v88_apply, val_main_v87_apply, v86_one x0 x1 x6 x7 h0 h1 h6 h7, val_main_v70_apply, hi, Ideal.mulf_def,
    one_mul]

/-- The value projection as the program computes it is `vproj`. -/
theorem v69_at (x0 : (⟨S32768x1024, .f32⟩ : BufTy).Contents (Elt Ideal)) (x6 : (⟨S3072x1024, .f32⟩ : BufTy).Contents (Elt Ideal)) (x7 : (⟨S3072, .f32⟩ : BufTy).Contents (Elt Ideal)) (b : Fin 32768) (k : Fin 1024) :
    val_main_v69 (F := Ideal) x0 x6 x7 (ix2 b k) = vproj x0 x6 x7 b k := by
  have hl : ∀ j : Fin 1024, lidx_main_v66 (ix2 b k) j = ix2 b j := fun j => by
    funext a
    match a with
    | ⟨0, _⟩ => rfl
    | ⟨1, _⟩ => rfl
  have hr : ∀ j : Fin 1024, idx_main_v49 (idx_main_v65 (ridx_main_v66 (ix2 b k) j)) = ix2 (hi k) j := fun j => by
    funext a
    match a with
    | ⟨0, _⟩ => rfl
    | ⟨1, _⟩ => rfl
  have hb : idx_main_v52 (idx_main_v67 (idx_main_v68 (ix2 b k))) = ix1 (hi k) := by
    funext a
    match a with
    | ⟨0, _⟩ => rfl
  rw [val_main_v69_apply, val_main_v66_apply, val_main_v68_apply, val_main_v67_apply, val_main_v52_apply, hb,
    Ideal.addf_def]
  unfold vproj
  refine congrArg (· + x7 (ix1 (hi k))) (Finset.sum_congr rfl (fun j _ => ?_))
  rw [val_main_v65_apply, val_main_v49_apply, hl, hr]

/-- The out-projection with its bias is `attn`. -/
theorem v93_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal))
    (h0 : AllR x0) (h1 : AllR x1) (h6 : AllR x6) (h7 : AllR x7) (b : Fin 32768) (e : Fin 1024) :
    val_main_v93 (F := Ideal) x0 x1 x6 x7 x8 x9 (ix2 b e) = attn x0 x6 x7 x8 x9 b e := by
  have hl : ∀ k : Fin 1024, lidx_main_v90 (ix2 b e) k = ix2 b k := fun k => by
    funext a
    match a with
    | ⟨0, _⟩ => rfl
    | ⟨1, _⟩ => rfl
  have hr : ∀ k : Fin 1024, idx_main_v89 (ridx_main_v90 (ix2 b e) k) = ix2 e k := fun k => by
    funext a
    match a with
    | ⟨0, _⟩ => rfl
    | ⟨1, _⟩ => rfl
  have hb : idx_main_v91 (idx_main_v92 (ix2 b e)) = ix1 e := by
    funext a
    match a with
    | ⟨0, _⟩ => rfl
  rw [val_main_v93_apply, val_main_v90_apply, val_main_v92_apply, val_main_v91_apply, hb, Ideal.addf_def]
  unfold attn
  refine congrArg (· + x9 (ix1 e)) (Finset.sum_congr rfl (fun k _ => ?_))
  rw [val_main_v89_apply, hl, hr, v88_eq x0 x1 x6 x7 h0 h1 h6 h7, v69_at]

/-! ## The residual and the layer norm -/

/-- The residual sum is `pre`, with the item embedding as the query. -/
theorem v125_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal)) (x15 : (⟨S1, .f32⟩ : BufTy).Contents (Elt Ideal))
    (h0 : AllR x0) (h1 : AllR x1) (h6 : AllR x6) (h7 : AllR x7) (b : Fin 32768) (e : Fin 1024) :
    val_main_v125 (F := Ideal) x0 x1 x6 x7 x8 x9 x15 (ix2 b e) = pre x1 x0 x6 x7 x8 x9 x15 b e := by
  have ha : idx_main_v122 (idx_main_v123 (ix2 b e)) = ix1 0 := by
    funext a
    match a with
    | ⟨0, _⟩ => rfl
  rw [val_main_v125_apply, val_main_v124_apply, val_main_v123_apply, val_main_v122_apply, ha,
    v93_at x0 x1 x6 x7 x8 x9 h0 h1 h6 h7, Ideal.addf_def, Ideal.mulf_def]
  rfl

/-- The row mean, the sum taken from zero. -/
theorem v129_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal)) (x15 : (⟨S1, .f32⟩ : BufTy).Contents (Elt Ideal))
    (h0 : AllR x0) (h1 : AllR x1) (h6 : AllR x6) (h7 : AllR x7) (b : Fin 32768) :
    val_main_v129 (F := Ideal) x0 x1 x6 x7 x8 x9 x15 (ix2 b 0) = mean (pre x1 x0 x6 x7 x8 x9 x15) b := by
  have hi : idx_main_v127 (ix2 b (0 : Fin 1)) = ix1 b := by
    funext a
    match a with
    | ⟨0, _⟩ => rfl
  have hk : ∀ e : Fin 1024, idx_main_v126 (ix1 b) e = ix2 b e := fun e => by
    funext a
    match a with
    | ⟨0, _⟩ => rfl
    | ⟨1, _⟩ => rfl
  rw [val_main_v129_apply, val_main_v127_apply, hi, val_main_v126_apply, val_main_v128_apply, val_main_cst_14_apply,
    val_main_cst_15_apply, Ideal.hostDivf_def, Ideal.ofBits_def, Ideal.ofBits_def, Ideal.ofBits_zero_f32, zero_add]
  unfold mean c1024
  refine congrArg (Ideal.div · _) (Finset.sum_congr rfl (fun e _ => ?_))
  rw [hk, v125_at x0 x1 x6 x7 x8 x9 x15 h0 h1 h6 h7]

/-- The deviation from the row mean. -/
theorem v131_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal)) (x15 : (⟨S1, .f32⟩ : BufTy).Contents (Elt Ideal))
    (h0 : AllR x0) (h1 : AllR x1) (h6 : AllR x6) (h7 : AllR x7) (b : Fin 32768) (e : Fin 1024) :
    val_main_v131 (F := Ideal) x0 x1 x6 x7 x8 x9 x15 (ix2 b e)
      = pre x1 x0 x6 x7 x8 x9 x15 b e - mean (pre x1 x0 x6 x7 x8 x9 x15) b := by
  have hi : idx_main_v130 (ix2 b e) = ix2 b 0 := by
    funext a
    match a with
    | ⟨0, _⟩ => rfl
    | ⟨1, _⟩ => rfl
  rw [val_main_v131_apply, val_main_v130_apply, hi, v125_at x0 x1 x6 x7 x8 x9 x15 h0 h1 h6 h7, v129_at x0 x1 x6 x7 x8 x9 x15 h0 h1 h6 h7, Ideal.subf_def]

/-- The deviation once more, as the normalisation reads it. -/
theorem v138_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal)) (x15 : (⟨S1, .f32⟩ : BufTy).Contents (Elt Ideal))
    (h0 : AllR x0) (h1 : AllR x1) (h6 : AllR x6) (h7 : AllR x7) (b : Fin 32768) (e : Fin 1024) :
    val_main_v138 (F := Ideal) x0 x1 x6 x7 x8 x9 x15 (ix2 b e)
      = pre x1 x0 x6 x7 x8 x9 x15 b e - mean (pre x1 x0 x6 x7 x8 x9 x15) b := by
  have hi : idx_main_v137 (ix2 b e) = ix2 b 0 := by
    funext a
    match a with
    | ⟨0, _⟩ => rfl
    | ⟨1, _⟩ => rfl
  rw [val_main_v138_apply, val_main_v137_apply, hi, v125_at x0 x1 x6 x7 x8 x9 x15 h0 h1 h6 h7, v129_at x0 x1 x6 x7 x8 x9 x15 h0 h1 h6 h7, Ideal.subf_def]

/-- The row variance, the sum of squared deviations taken from zero. -/
theorem v136_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal)) (x15 : (⟨S1, .f32⟩ : BufTy).Contents (Elt Ideal))
    (h0 : AllR x0) (h1 : AllR x1) (h6 : AllR x6) (h7 : AllR x7) (b : Fin 32768) :
    val_main_v136 (F := Ideal) x0 x1 x6 x7 x8 x9 x15 (ix2 b 0) = var (pre x1 x0 x6 x7 x8 x9 x15) b := by
  have hi : idx_main_v134 (ix2 b (0 : Fin 1)) = ix1 b := by
    funext a
    match a with
    | ⟨0, _⟩ => rfl
  have hk : ∀ e : Fin 1024, idx_main_v133 (ix1 b) e = ix2 b e := fun e => by
    funext a
    match a with
    | ⟨0, _⟩ => rfl
    | ⟨1, _⟩ => rfl
  rw [val_main_v136_apply, val_main_v134_apply, hi, val_main_v133_apply, val_main_v135_apply, val_main_cst_16_apply,
    val_main_cst_17_apply, Ideal.hostDivf_def, Ideal.ofBits_def, Ideal.ofBits_def, Ideal.ofBits_zero_f32, zero_add]
  unfold var c1024
  refine congrArg (Ideal.div · _) (Finset.sum_congr rfl (fun e _ => ?_))
  rw [hk, val_main_v132_apply, v131_at x0 x1 x6 x7 x8 x9 x15 h0 h1 h6 h7, Ideal.mulf_def]

/-- The result at an index is the layer norm of the residual row. -/
theorem v149_at (x0 x1 : (⟨S32768x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 : (⟨S1024, .f32⟩ : BufTy).Contents (Elt Ideal))
    (x12 x13 : (⟨S1024, .f32⟩ : BufTy).Contents (Elt Ideal)) (x15 : (⟨S1, .f32⟩ : BufTy).Contents (Elt Ideal))
    (h0 : AllR x0) (h1 : AllR x1) (h6 : AllR x6) (h7 : AllR x7) (b : Fin 32768) (e : Fin 1024) :
    val_main_v149 (F := Ideal) x0 x1 x6 x7 x8 x9 x12 x13 x15 (ix2 b e) = ln (pre x1 x0 x6 x7 x8 x9 x15) x12 x13 b e := by
  have h142 : idx_main_v142 (ix2 b e) = ix2 b 0 := by
    funext a
    match a with
    | ⟨0, _⟩ => rfl
    | ⟨1, _⟩ => rfl
  have h145 : idx_main_v144 (idx_main_v145 (ix2 b e)) = ix1 e := by
    funext a
    match a with
    | ⟨0, _⟩ => rfl
  have h148 : idx_main_v147 (idx_main_v148 (ix2 b e)) = ix1 e := by
    funext a
    match a with
    | ⟨0, _⟩ => rfl
  rw [val_main_v149_apply, val_main_v146_apply, val_main_v143_apply, v138_at x0 x1 x6 x7 x8 x9 x15 h0 h1 h6 h7, val_main_v142_apply, h142,
    val_main_v141_apply, val_main_v140_apply, v136_at x0 x1 x6 x7 x8 x9 x15 h0 h1 h6 h7, val_main_v139_apply, val_main_cst_18_apply,
    val_main_v145_apply, val_main_v144_apply, h145, val_main_v148_apply, val_main_v147_apply, h148]
  simp only [Ideal.addf_def, Ideal.mulf_def, Ideal.hostUnary_rsqrt_def, Ideal.ofBits_def]
  rfl

/-- The item side: query the item embedding, key and value the user embedding. -/
theorem item_eq (x0 x1 : (⟨S32768x1024, .f32⟩ : BufTy).Contents (Elt Ideal)) (x6 : (⟨S3072x1024, .f32⟩ : BufTy).Contents (Elt Ideal))
    (x7 : (⟨S3072, .f32⟩ : BufTy).Contents (Elt Ideal)) (x8 : (⟨S1024x1024, .f32⟩ : BufTy).Contents (Elt Ideal))
    (x9 x12 x13 : (⟨S1024, .f32⟩ : BufTy).Contents (Elt Ideal)) (x15 : (⟨S1, .f32⟩ : BufTy).Contents (Elt Ideal))
    (h0 : AllR x0) (h1 : AllR x1) (h6 : AllR x6) (h7 : AllR x7) :
    val_main_v149 (F := Ideal) x0 x1 x6 x7 x8 x9 x12 x13 x15 = G x1 x0 x6 x7 x8 x9 x15 x12 x13 := by
  funext i
  obtain ⟨b, e, rfl⟩ : ∃ (b : Fin 32768) (e : Fin 1024), i = ix2 b e := ⟨i 0, i 1, eq_ix2 i⟩
  rw [G_apply, v149_at x0 x1 x6 x7 x8 x9 x12 x13 x15 h0 h1 h6 h7]

end Cert.ReferenceIdeal.RefItem

end
-- ==== Proof.PreFin.lean ====
/-
  From the precondition to real entries: `finite_inputs` says every entry of every float argument has absolute value
  below `+∞`, which on the extended reals means the entry is a real number.
-/
import proofs.«400539_j33011118637072_3_alg».proof.Pre_finite_inputs
import proofs.«400539_j33011118637072_3_alg».proof.Proof.Gen.Pre_finite_inputs
import proofs.«400539_j33011118637072_3_alg».proof.Proof.Algebra
import Idealize.ShloMosaic.Lib.ReduceAll

noncomputable section

namespace Cert.PreFin

open Idealize.ShloMosaic Idealize.ShloMosaic.ValueIdx Cert.Spec Cert.Pre_finite_inputs

variable [Cert.Pre_finite_inputs.Facts]

/-- The rank-0 shape has one index. -/
instance : Subsingleton S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value is below `+∞` is a real number. -/
theorem isR_of_abs_lt_top (a : EReal) (h : Ideal.cmp .olt (max a (-a)) ⊤ = 1#1) : IsR a := by
  induction a using EReal.rec with
  | bot => simp [Ideal.cmp] at h
  | coe r => exact ⟨r, rfl⟩
  | top => simp [Ideal.cmp] at h

/-- `jnp.all(|x| < +∞)` being 1 says every entry of `x` is a real number. -/
theorem allR_of_all {s : Shape} {axes : List (Fin s.rank)} (x : FVec Ideal s .f32) (hb : S_.BroadcastsInDim s ![])
    (hr : s.ReducesTo axes S_) (init : IVec S_ 1) (hS : 0 < S_.numel) (j : S_.Idx)
    (e : Host.reduce IntOp.andi (cmpf .olt (Host.absf x) (broadcastInDim s ![] hb (constant S_ .f32 0x7F800000#32)))
      init hr hS j = 1#1) : AllR x := by
  intro i
  have h1 := Host.reduce_andi_all _ init hr hS j e i
  apply isR_of_abs_lt_top
  rw [← ofBits_inf]
  exact h1

/-- The precondition all ones gives real entries in every argument array the two programs' arithmetic reads. -/
theorem allR_of_pre (x0 x1 : FVec Ideal S32768x1024 .f32) (x2 : FVec Ideal S3072x1024 .f32) (x3 : FVec Ideal S3072 .f32)
    (x4 : FVec Ideal S1024x1024 .f32) (x5 : FVec Ideal S1024 .f32) (x6 : FVec Ideal S3072x1024 .f32) (x7 : FVec Ideal S3072 .f32)
    (x8 : FVec Ideal S1024x1024 .f32) (x9 x10 x11 x12 x13 : FVec Ideal S1024 .f32) (x14 x15 : FVec Ideal S1 .f32)
    (h : Cert.Pre_finite_inputs.fn (F := Ideal) x0 x1 x2 x3 x4 x5 x6 x7 x8 x9 x10 x11 x12 x13 x14 x15 = fun _ => 1#1) :
    AllR x0 ∧ AllR x1 ∧ AllR x2 ∧ AllR x3 ∧ AllR x4 ∧ AllR x5 ∧ AllR x6 ∧ AllR x7 ∧ AllR x8 ∧ AllR x9 ∧ AllR x14 ∧ AllR x15 := by
  have h' := congrFun h ValueIdx.ix0
  simp only [fn, fn_part1, fn_part2, fn_part3, fn_part4, andi, IntOp.andi_eq_one] at h'
  obtain ⟨⟨⟨⟨⟨⟨⟨⟨⟨⟨⟨⟨⟨⟨⟨e0, e1⟩, e2⟩, e3⟩, e4⟩, e5⟩, e6⟩, e7⟩, e8⟩, e9⟩, _⟩, _⟩, _⟩, _⟩, e14⟩, e15⟩ := h'
  exact ⟨allR_of_all x0 _ _ _ _ _ e0, allR_of_all x1 _ _ _ _ _ e1, allR_of_all x2 _ _ _ _ _ e2,
    allR_of_all x3 _ _ _ _ _ e3, allR_of_all x4 _ _ _ _ _ e4, allR_of_all x5 _ _ _ _ _ e5,
    allR_of_all x6 _ _ _ _ _ e6, allR_of_all x7 _ _ _ _ _ e7, allR_of_all x8 _ _ _ _ _ e8,
    allR_of_all x9 _ _ _ _ _ e9, allR_of_all x14 _ _ _ _ _ e14, allR_of_all x15 _ _ _ _ _ e15⟩

end Cert.PreFin

end
-- ==== Proof.lean ====
/-
  The progressive interaction layer with one query and one key per row: the kernel against its reference, on the
  extended reals.

  Per side the reference projects the other embedding to a query, a key and a value, takes the softmax of the ONE score
  per head — which is `exp 0 / exp 0 = 1` as soon as the score is finite —, so its attention output is the value
  projection through the out-projection; it adds `α` times that to the embedding and applies a layer norm with the
  variance as the mean squared deviation. The kernel program multiplies the value projection and the out-projection
  into one matrix beforehand, scales matrix and bias by `α`, and inside its one launch computes, for 512 rows per grid
  point, the residual sum and a layer norm with the variance as `max (E[x²] − E[x]², 0)`.

  For finite inputs both are the function `Spec.G` of the side's nine argument arrays:
  * distributivity and an exchange of two finite sums join the folded and the unfolded products (`Spec.fold_eq`);
  * a real row's `E[x²] − E[x]²` is its mean squared deviation and is not negative (`Spec.var_eq`);
  * a finite score's softmax weight is 1 (`Spec.softmax_single`).
  The precondition gives the finiteness (`PreFin.allR_of_pre`). The kernel's two result arrays are read off its frame
  run block by block (`KBlock.final10`, `KBlock.final11`), the reference's off its run one operation at a time
  (`RefUser.user_eq`, `RefItem.item_eq`). The idealization rewrote nothing, so `preserves` has nothing to state.
-/
import proofs.«400539_j33011118637072_3_alg».proof.Defs
import proofs.«400539_j33011118637072_3_alg».proof.Proof.Gen.Kernel
import proofs.«400539_j33011118637072_3_alg».proof.Proof.Gen.Kernel.Skeleton
import proofs.«400539_j33011118637072_3_alg».proof.Proof.Gen.Kernel.Launch
import proofs.«400539_j33011118637072_3_alg».proof.Proof.Gen.Kernel.Points
import proofs.«400539_j33011118637072_3_alg».proof.Proof.Gen.Kernel.Frame
import proofs.«400539_j33011118637072_3_alg».proof.Proof.Gen.KernelIdeal
import proofs.«400539_j33011118637072_3_alg».proof.Proof.Gen.KernelIdeal.Skeleton
import proofs.«400539_j33011118637072_3_alg».proof.Proof.Gen.KernelIdeal.Launch
import proofs.«400539_j33011118637072_3_alg».proof.Proof.Gen.KernelIdeal.Points
import proofs.«400539_j33011118637072_3_alg».proof.Proof.Gen.KernelIdeal.Frame
import proofs.«400539_j33011118637072_3_alg».proof.Proof.Gen.ReferenceIdeal
import proofs.«400539_j33011118637072_3_alg».proof.Proof.Gen.Pre_finite_inputs
import proofs.«400539_j33011118637072_3_alg».proof.Proof.Gen.KernelIdeal.Value
import proofs.«400539_j33011118637072_3_alg».proof.Proof.Gen.ReferenceIdeal.Run
import proofs.«400539_j33011118637072_3_alg».proof.Proof.Gen.ReferenceIdeal.Read
import proofs.«400539_j33011118637072_3_alg».proof.Proof.KBlock
import proofs.«400539_j33011118637072_3_alg».proof.Proof.RefUser
import proofs.«400539_j33011118637072_3_alg».proof.Proof.RefItem
import proofs.«400539_j33011118637072_3_alg».proof.Proof.PreFin
import Idealize.ShloMosaic.Adequacy
import Idealize.ShloMosaic.Init

noncomputable section

namespace Cert.Proof

open Idealize.ShloMosaic Idealize.SL.Sem Cert.Spec

/-- The word-level kernel program runs and keeps its arguments. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the sixteen arguments, all finite, both programs end with the first result at `G` of the
    user-side arguments and the second at `G` of the item-side arguments. -/
theorem algebraic : Cert.algebraic_KernelIdeal_ReferenceIdeal := by
  intro m ρ m' ρ' hpre hagree
  have hfin := fun c => Cert.PreFin.allR_of_pre _ _ _ _ _ _ _ _ _ _ _ _ _ _ _ _ (hpre c)
  refine ⟨fun c => G (Cert.KernelIdeal.KArgs.A0 m c) (Cert.KernelIdeal.KArgs.A1 m c) (Cert.KernelIdeal.KArgs.A2 m c)
      (Cert.KernelIdeal.KArgs.A3 m c) (Cert.KernelIdeal.KArgs.A4 m c) (Cert.KernelIdeal.KArgs.A5 m c) (Cert.KernelIdeal.KArgs.A14 m c)
      (Cert.KernelIdeal.KArgs.A10 m c) (Cert.KernelIdeal.KArgs.A11 m c),
    fun c => G (Cert.KernelIdeal.KArgs.A1 m c) (Cert.KernelIdeal.KArgs.A0 m c) (Cert.KernelIdeal.KArgs.A6 m c)
      (Cert.KernelIdeal.KArgs.A7 m c) (Cert.KernelIdeal.KArgs.A8 m c) (Cert.KernelIdeal.KArgs.A9 m c) (Cert.KernelIdeal.KArgs.A15 m c)
      (Cert.KernelIdeal.KArgs.A12 m c) (Cert.KernelIdeal.KArgs.A13 m c), ?_, ?_⟩
  · refine (θ_run Cert.KernelIdeal.defs _ _).mono (fun r h c => ?_) (Cert.KernelIdeal.Value.run_blocks (F := Ideal) m ρ)
    obtain ⟨f0, f1, f2, f3, f4, f5, f6, f7, f8, f9, f14, f15⟩ := hfin c
    exact ⟨(h c).1.trans (Cert.KernelIdeal.KBlock.final10 m c f0 f1 f2 f3 f4 f5 f14),
      (h c).2.1.trans (Cert.KernelIdeal.KBlock.final11 m c f0 f1 f6 f7 f8 f9 f15), (h c).2.2⟩
  · refine (θ_run Cert.ReferenceIdeal.defs _ _).mono (fun r h c => ?_) (Cert.ReferenceIdeal.Value.run (F := Ideal) m' ρ')
    obtain ⟨f0, f1, f2, f3, f4, f5, f6, f7, f8, f9, f14, f15⟩ := hfin c
    obtain ⟨a0, a1, a2, a3, a4, a5, a6, a7, a8, a9, a10, a11, a12, a13, a14, a15⟩ := hagree c
    refine ⟨(h c).1.trans ?_, (h c).2.1.trans ?_, (h c).2.2⟩
    · rw [Cert.ReferenceIdeal.Read.val_main_v121_eq, a0, a1, a2, a3, a4, a5, a10, a11, a14]
      exact Cert.ReferenceIdeal.RefUser.user_eq _ _ _ _ _ _ _ _ _ f0 f1 f2 f3
    · rw [Cert.ReferenceIdeal.Read.val_main_v149_eq, a0, a1, a6, a7, a8, a9, a12, a13, a15]
      exact Cert.ReferenceIdeal.RefItem.item_eq _ _ _ _ _ _ _ _ _ f0 f1 f6 f7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
